-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_v6) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S16384x28 : Shape := ⟨2, ![16384, 28]⟩
abbrev S16384x1 : Shape := ⟨2, ![16384, 1]⟩
abbrev S512x1053 : Shape := ⟨2, ![512, 1053]⟩
abbrev S512 : Shape := ⟨1, ![512]⟩
abbrev S1536x512 : Shape := ⟨2, ![1536, 512]⟩
abbrev S1536 : Shape := ⟨1, ![1536]⟩
abbrev S128x512 : Shape := ⟨2, ![128, 512]⟩
abbrev S128 : Shape := ⟨1, ![128]⟩
abbrev S1x128 : Shape := ⟨2, ![1, 128]⟩
abbrev S1 : Shape := ⟨1, ![1]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S16384x28 : S_.BroadcastsInDim S16384x28 (![] : Fin 0 → Fin S16384x28.rank)
  reducesTo_S16384x28_S_d0_1 : S16384x28.ReducesTo [0, 1] S_
  bcast_S_S16384x1 : S_.BroadcastsInDim S16384x1 (![] : Fin 0 → Fin S16384x1.rank)
  reducesTo_S16384x1_S_d0_1 : S16384x1.ReducesTo [0, 1] S_
  bcast_S_S512x1053 : S_.BroadcastsInDim S512x1053 (![] : Fin 0 → Fin S512x1053.rank)
  reducesTo_S512x1053_S_d0_1 : S512x1053.ReducesTo [0, 1] S_
  bcast_S_S512 : S_.BroadcastsInDim S512 (![] : Fin 0 → Fin S512.rank)
  reducesTo_S512_S_d0 : S512.ReducesTo [0] S_
  bcast_S_S1536x512 : S_.BroadcastsInDim S1536x512 (![] : Fin 0 → Fin S1536x512.rank)
  reducesTo_S1536x512_S_d0_1 : S1536x512.ReducesTo [0, 1] S_
  bcast_S_S1536 : S_.BroadcastsInDim S1536 (![] : Fin 0 → Fin S1536.rank)
  reducesTo_S1536_S_d0 : S1536.ReducesTo [0] S_
  bcast_S_S128x512 : S_.BroadcastsInDim S128x512 (![] : Fin 0 → Fin S128x512.rank)
  reducesTo_S128x512_S_d0_1 : S128x512.ReducesTo [0, 1] S_
  bcast_S_S128 : S_.BroadcastsInDim S128 (![] : Fin 0 → Fin S128.rank)
  reducesTo_S128_S_d0 : S128.ReducesTo [0] S_
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg14 : FVec F S1x128 .f32) (main_arg15 : FVec F S1 .f32) (main_v63 : IVec S_ 1) (main_v67 : IVec S_ 1) : IVec S_ 1 :=
  let main_v68 : IVec S_ 1 := andi main_v63 main_v67
  let main_v69 : FVec F S1x128 .f32 := Host.absf main_arg14
  let main_cst_26 : FVec F S_ .f32 := constant S_ .f32 0x7F800000#32
  let main_v70 : FVec F S1x128 .f32 := broadcastInDim S1x128 ![] bcast_S_S1x128 main_cst_26
  let main_v71 : IVec S1x128 1 := cmpf .olt main_v69 main_v70
  let main_c_27 : IVec S_ 1 := constantI S_ 1 1#1
  let main_v72 : IVec S_ 1 := (fun x v => Host.reduce IntOp.andi x v reducesTo_S1x128_S_d0_1 h_S_) main_v71 main_c_27
  let main_v73 : IVec S_ 1 := andi main_v68 main_v72
  let main_v74 : FVec F S1 .f32 := Host.absf main_arg15
  let main_cst_28 : FVec F S_ .f32 := constant S_ .f32 0x7F800000#32
  let main_v75 : FVec F S1 .f32 := broadcastInDim S1 ![] bcast_S_S1 main_cst_28
  let main_v76 : IVec S1 1 := cmpf .olt main_v74 main_v75
  let main_c_29 : IVec S_ 1 := constantI S_ 1 1#1
  let main_v77 : IVec S_ 1 := (fun x v => Host.reduce IntOp.andi x v reducesTo_S1_S_d0 h_S_) main_v76 main_c_29
  let main_v78 : IVec S_ 1 := andi main_v73 main_v77
  main_v78

def fn_part3 {F : FTy → Type} [FloatOps F] (main_arg11 : FVec F S512 .f32) (main_arg12 : FVec F S128x512 .f32) (main_arg13 : FVec F S128 .f32) (main_arg14 : FVec F S1x128 .f32) (main_arg15 : FVec F S1 .f32) (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  let main_v54 : FVec F S512 .f32 := Host.absf main_arg11
  let main_cst_20 : FVec F S_ .f32 := constant S_ .f32 0x7F800000#32
  let main_v55 : FVec F S512 .f32 := broadcastInDim S512 ![] bcast_S_S512 main_cst_20
  let main_v56 : IVec S512 1 := cmpf .olt main_v54 main_v55
  let main_c_21 : IVec S_ 1 := constantI S_ 1 1#1
  let main_v57 : IVec S_ 1 := (fun x v => Host.reduce IntOp.andi x v reducesTo_S512_S_d0 h_S_) main_v56 main_c_21
  let main_v58 : IVec S_ 1 := andi main_v53 main_v57
  let main_v59 : FVec F S128x512 .f32 := Host.absf main_arg12
  let main_cst_22 : FVec F S_ .f32 := constant S_ .f32 0x7F800000#32
  let main_v60 : FVec F S128x512 .f32 := broadcastInDim S128x512 ![] bcast_S_S128x512 main_cst_22
  let main_v61 : IVec S128x512 1 := cmpf .olt main_v59 main_v60
  let main_c_23 : IVec S_ 1 := constantI S_ 1 1#1
  let main_v62 : IVec S_ 1 := (fun x v => Host.reduce IntOp.andi x v reducesTo_S128x512_S_d0_1 h_S_) main_v61 main_c_23
  let main_v63 : IVec S_ 1 := andi main_v58 main_v62
  let main_v64 : FVec F S128 .f32 := Host.absf main_arg13
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg14 main_arg15 main_v63 main_v67

def fn_part2 {F : FTy → Type} [FloatOps F] (main_arg7 : FVec F S1536 .f32) (main_arg8 : FVec F S1536x512 .f32) (main_arg9 : FVec F S1536 .f32) (main_arg10 : FVec F S512 .f32) (main_arg11 : FVec F S512 .f32) (main_arg12 : FVec F S128x512 .f32) (main_arg13 : FVec F S128 .f32) (main_arg14 : FVec F S1x128 .f32) (main_arg15 : FVec F S1 .f32) (main_v33 : IVec S_ 1) : IVec S_ 1 :=
  let main_v34 : FVec F S1536 .f32 := Host.absf main_arg7
  let main_cst_12 : FVec F S_ .f32 := constant S_ .f32 0x7F800000#32
  let main_v35 : FVec F S1536 .f32 := broadcastInDim S1536 ![] bcast_S_S1536 main_cst_12
  let main_v36 : IVec S1536 1 := cmpf .olt main_v34 main_v35
  let main_c_13 : IVec S_ 1 := constantI S_ 1 1#1
  let main_v37 : IVec S_ 1 := (fun x v => Host.reduce IntOp.andi x v reducesTo_S1536_S_d0 h_S_) main_v36 main_c_13
  let main_v38 : IVec S_ 1 := andi main_v33 main_v37
  let main_v39 : FVec F S1536x512 .f32 := Host.absf main_arg8
  let main_cst_14 : FVec F S_ .f32 := constant S_ .f32 0x7F800000#32
  let main_v40 : FVec F S1536x512 .f32 := broadcastInDim S1536x512 ![] bcast_S_S1536x512 main_cst_14
  let main_v41 : IVec S1536x512 1 := cmpf .olt main_v39 main_v40
  let main_c_15 : IVec S_ 1 := constantI S_ 1 1#1
  let main_v42 : IVec S_ 1 := (fun x v => Host.reduce IntOp.andi x v reducesTo_S1536x512_S_d0_1 h_S_) main_v41 main_c_15
  let main_v43 : IVec S_ 1 := andi main_v38 main_v42
  let main_v44 : FVec F S1536 .f32 := Host.absf main_arg9
  let main_cst_16 : FVec F S_ .f32 := constant S_ .f32 0x7F800000#32
  let main_v45 : FVec F S1536 .f32 := broadcastInDim S1536 ![] bcast_S_S1536 main_cst_16
  let main_v46 : IVec S1536 1 := cmpf .olt main_v44 main_v45
  let main_c_17 : IVec S_ 1 := constantI S_ 1 1#1
  let main_v47 : IVec S_ 1 := (fun x v => Host.reduce IntOp.andi x v reducesTo_S1536_S_d0 h_S_) main_v46 main_c_17
  let main_v48 : IVec S_ 1 := andi main_v43 main_v47
  let main_v49 : FVec F S512 .f32 := Host.absf main_arg10
  let main_cst_18 : FVec F S_ .f32 := constant S_ .f32 0x7F800000#32
  let main_v50 : FVec F S512 .f32 := broadcastInDim S512 ![] bcast_S_S512 main_cst_18
  fn_part3 (F := F) main_arg11 main_arg12 main_arg13 main_arg14 main_arg15 main_v48 main_v49 main_v50

def fn_part1 {F : FTy → Type} [FloatOps F] (main_arg4 : FVec F S512x1053 .f32) (main_arg5 : FVec F S512 .f32) (main_arg6 : FVec F S1536x512 .f32) (main_arg7 : FVec F S1536 .f32) (main_arg8 : FVec F S1536x512 .f32) (main_arg9 : FVec F S1536 .f32) (main_arg10 : FVec F S512 .f32) (main_arg11 : FVec F S512 .f32) (main_arg12 : FVec F S128x512 .f32) (main_arg13 : FVec F S128 .f32) (main_arg14 : FVec F S1x128 .f32) (main_arg15 : FVec F S1 .f32) (main_v13 : IVec S_ 1) (main_v16 : IVec S16384x1 1) : IVec S_ 1 :=
  let main_c_5 : IVec S_ 1 := constantI S_ 1 1#1
  let main_v17 : IVec S_ 1 := (fun x v => Host.reduce IntOp.andi x v reducesTo_S16384x1_S_d0_1 h_S_) main_v16 main_c_5
  let main_v18 : IVec S_ 1 := andi main_v13 main_v17
  let main_v19 : FVec F S512x1053 .f32 := Host.absf main_arg4
  let main_cst_6 : FVec F S_ .f32 := constant S_ .f32 0x7F800000#32
  let main_v20 : FVec F S512x1053 .f32 := broadcastInDim S512x1053 ![] bcast_S_S512x1053 main_cst_6
  let main_v21 : IVec S512x1053 1 := cmpf .olt main_v19 main_v20
  let main_c_7 : IVec S_ 1 := constantI S_ 1 1#1
  let main_v22 : IVec S_ 1 := (fun x v => Host.reduce IntOp.andi x v reducesTo_S512x1053_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S1536x512 .f32 := Host.absf main_arg6
  let main_cst_10 : FVec F S_ .f32 := constant S_ .f32 0x7F800000#32
  let main_v30 : FVec F S1536x512 .f32 := broadcastInDim S1536x512 ![] bcast_S_S1536x512 main_cst_10
  let main_v31 : IVec S1536x512 1 := cmpf .olt main_v29 main_v30
  let main_c_11 : IVec S_ 1 := constantI S_ 1 1#1
  let main_v32 : IVec S_ 1 := (fun x v => Host.reduce IntOp.andi x v reducesTo_S1536x512_S_d0_1 h_S_) main_v31 main_c_11
  let main_v33 : IVec S_ 1 := andi main_v28 main_v32
  fn_part2 (F := F) main_arg7 main_arg8 main_arg9 main_arg10 main_arg11 main_arg12 main_arg13 main_arg14 main_arg15 main_v33

def fn {F : FTy → Type} [FloatOps F] (main_arg0 : FVec F S16384x512 .f32) (main_arg1 : FVec F S16384x512 .f32) (main_arg2 : FVec F S16384x28 .f32) (main_arg3 : FVec F S16384x1 .f32) (main_arg4 : FVec F S512x1053 .f32) (main_arg5 : FVec F S512 .f32) (main_arg6 : FVec F S1536x512 .f32) (main_arg7 : FVec F S1536 .f32) (main_arg8 : FVec F S1536x512 .f32) (main_arg9 : FVec F S1536 .f32) (main_arg10 : FVec F S512 .f32) (main_arg11 : FVec F S512 .f32) (main_arg12 : FVec F S128x512 .f32) (main_arg13 : FVec F S128 .f32) (main_arg14 : FVec F S1x128 .f32) (main_arg15 : FVec F S1 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S16384x512 .f32 := Host.absf main_arg1
  let main_cst_0 : FVec F S_ .f32 := constant S_ .f32 0x7F800000#32
  let main_v5 : FVec F S16384x512 .f32 := broadcastInDim S16384x512 ![] bcast_S_S16384x512 main_cst_0
  let main_v6 : IVec S16384x512 1 := cmpf .olt main_v4 main_v5
  let main_c_1 : IVec S_ 1 := constantI S_ 1 1#1
  let main_v7 : IVec S_ 1 := (fun x v => Host.reduce IntOp.andi x v reducesTo_S16384x512_S_d0_1 h_S_) main_v6 main_c_1
  let main_v8 : IVec S_ 1 := andi main_v3 main_v7
  let main_v9 : FVec F S16384x28 .f32 := Host.absf main_arg2
  let main_cst_2 : FVec F S_ .f32 := constant S_ .f32 0x7F800000#32
  let main_v10 : FVec F S16384x28 .f32 := broadcastInDim S16384x28 ![] bcast_S_S16384x28 main_cst_2
  let main_v11 : IVec S16384x28 1 := cmpf .olt main_v9 main_v10
  let main_c_3 : IVec S_ 1 := constantI S_ 1 1#1
  let main_v12 : IVec S_ 1 := (fun x v => Host.reduce IntOp.andi x v reducesTo_S16384x28_S_d0_1 h_S_) main_v11 main_c_3
  let main_v13 : IVec S_ 1 := andi main_v8 main_v12
  let main_v14 : FVec F S16384x1 .f32 := Host.absf main_arg3
  let main_cst_4 : FVec F S_ .f32 := constant S_ .f32 0x7F800000#32
  let main_v15 : FVec F S16384x1 .f32 := broadcastInDim S16384x1 ![] bcast_S_S16384x1 main_cst_4
  let main_v16 : IVec S16384x1 1 := cmpf .olt main_v14 main_v15
  fn_part1 (F := F) main_arg4 main_arg5 main_arg6 main_arg7 main_arg8 main_arg9 main_arg10 main_arg11 main_arg12 main_arg13 main_arg14 main_arg15 main_v13 main_v16
-- ==== Kernel.lean ====
abbrev S16384x512 : Shape := ⟨2, ![16384, 512]⟩
abbrev S16384x28 : Shape := ⟨2, ![16384, 28]⟩
abbrev S16384x1 : Shape := ⟨2, ![16384, 1]⟩
abbrev S512x1053 : Shape := ⟨2, ![512, 1053]⟩
abbrev S512 : Shape := ⟨1, ![512]⟩
abbrev S1536x512 : Shape := ⟨2, ![1536, 512]⟩
abbrev S1536 : Shape := ⟨1, ![1536]⟩
abbrev S128x512 : Shape := ⟨2, ![128, 512]⟩
abbrev S128 : Shape := ⟨1, ![128]⟩
abbrev S1x128 : Shape := ⟨2, ![1, 128]⟩
abbrev S1 : Shape := ⟨1, ![1]⟩
abbrev S1053x512 : Shape := ⟨2, ![1053, 512]⟩
abbrev S512x1536 : Shape := ⟨2, ![512, 1536]⟩
abbrev S512x128 : Shape := ⟨2, ![512, 128]⟩
abbrev S128x1 : Shape := ⟨2, ![128, 1]⟩
abbrev S512x512 : Shape := ⟨2, ![512, 512]⟩
abbrev S512x28 : Shape := ⟨2, ![512, 28]⟩
abbrev S512x1 : Shape := ⟨2, ![512, 1]⟩
abbrev S1x512 : Shape := ⟨2, ![1, 512]⟩
abbrev S1x1 : Shape := ⟨2, ![1, 1]⟩
abbrev S1x1536 : Shape := ⟨2, ![1, 1536]⟩

abbrev nBuf : Space → Nat
  | .hbm => 28
  | .vmem => 24
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x28, .f32⟩
  | .hbm, ⟨3, _⟩ => ⟨S16384x1, .f32⟩
  | .hbm, ⟨4, _⟩ => ⟨S512x1053, .f32⟩
  | .hbm, ⟨5, _⟩ => ⟨S512, .f32⟩
  | .hbm, ⟨6, _⟩ => ⟨S1536x512, .f32⟩
  | .hbm, ⟨7, _⟩ => ⟨S1536, .f32⟩
  | .hbm, ⟨8, _⟩ => ⟨S1536x512, .f32⟩
  | .hbm, ⟨9, _⟩ => ⟨S1536, .f32⟩
  | .hbm, ⟨10, _⟩ => ⟨S512, .f32⟩
  | .hbm, ⟨11, _⟩ => ⟨S512, .f32⟩
  | .hbm, ⟨12, _⟩ => ⟨S128x512, .f32⟩
  | .hbm, ⟨13, _⟩ => ⟨S128, .f32⟩
  | .hbm, ⟨14, _⟩ => ⟨S1x128, .f32⟩
  | .hbm, ⟨15, _⟩ => ⟨S1, .f32⟩
  | .hbm, ⟨16, _⟩ => ⟨S1053x512, .f32⟩
  | .hbm, ⟨17, _⟩ => ⟨S1053x512, .bf16⟩
  | .hbm, ⟨18, _⟩ => ⟨S512x1536, .f32⟩
  | .hbm, ⟨19, _⟩ => ⟨S512x1536, .bf16⟩
  | .hbm, ⟨20, _⟩ => ⟨S512x1536, .f32⟩
  | .hbm, ⟨21, _⟩ => ⟨S512x1536, .bf16⟩
  | .hbm, ⟨22, _⟩ => ⟨S512x128, .f32⟩
  | .hbm, ⟨23, _⟩ => ⟨S512x128, .bf16⟩
  | .hbm, ⟨24, _⟩ => ⟨S128x1, .f32⟩
  | .hbm, ⟨25, _⟩ => ⟨S128x1, .bf16⟩
  | .hbm, ⟨26, _⟩ => ⟨S16384x512, .f32⟩
  | .hbm, ⟨27, _⟩ => ⟨S16384x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x28, .f32⟩
  | .local _ .vmem, ⟨5, _⟩ => ⟨S512x28, .f32⟩
  | .local _ .vmem, ⟨6, _⟩ => ⟨S512x1, .f32⟩
  | .local _ .vmem, ⟨7, _⟩ => ⟨S512x1, .f32⟩
  | .local _ .vmem, ⟨8, _⟩ => ⟨S1053x512, .bf16⟩
  | .local _ .vmem, ⟨9, _⟩ => ⟨S512, .f32⟩
  | .local _ .vmem, ⟨10, _⟩ => ⟨S512x1536, .bf16⟩
  | .local _ .vmem, ⟨11, _⟩ => ⟨S1536, .f32⟩
  | .local _ .vmem, ⟨12, _⟩ => ⟨S512x1536, .bf16⟩
  | .local _ .vmem, ⟨13, _⟩ => ⟨S1536, .f32⟩
  | .local _ .vmem, ⟨14, _⟩ => ⟨S512, .f32⟩
  | .local _ .vmem, ⟨15, _⟩ => ⟨S512, .f32⟩
  | .local _ .vmem, ⟨16, _⟩ => ⟨S512x128, .bf16⟩
  | .local _ .vmem, ⟨17, _⟩ => ⟨S128, .f32⟩
  | .local _ .vmem, ⟨18, _⟩ => ⟨S128x1, .bf16⟩
  | .local _ .vmem, ⟨19, _⟩ => ⟨S1, .f32⟩
  | .local _ .vmem, ⟨20, _⟩ => ⟨S512x512, .f32⟩
  | .local _ .vmem, ⟨21, _⟩ => ⟨S512x512, .f32⟩
  | .local _ .vmem, ⟨22, _⟩ => ⟨S512x512, .f32⟩
  | .local _ .vmem, ⟨23, _⟩ => ⟨S512x512, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10_0 : Ref sig .tc := ⟨.hbm, 26, rfl⟩
abbrev main_v10_1 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg16_0 : Ref sig .tc := ⟨.vmem, 20, rfl⟩
abbrev cc0_stg16_1 : Ref sig .tc := ⟨.vmem, 21, rfl⟩
abbrev cc0_stg17_0 : Ref sig .tc := ⟨.vmem, 22, rfl⟩
abbrev cc0_stg17_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem16_0 : DmaSem sig := 20
abbrev cc0_sem16_1 : DmaSem sig := 21
abbrev cc0_sem17_0 : DmaSem sig := 22
abbrev cc0_sem17_1 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x28 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1053x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1536 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1536 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1536 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1536 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128x1 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S512x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

class Facts₀ : Prop where
  transposes_S512x1053_S1053x512_1_0 : S512x1053.Transposes [1, 0] S1053x512
  bitsLt_bf16_f32 : FTy.bits .bf16 < FTy.bits .f32
  transposes_S1536x512_S512x1536_1_0 : S1536x512.Transposes [1, 0] S512x1536
  transposes_S128x512_S512x128_1_0 : S128x512.Transposes [1, 0] S512x128
  transposes_S1x128_S128x1_1_0 : S1x128.Transposes [1, 0] S128x1
  inb_S512x512_S512x512_0_0 : ∀ a, (![0, 0] : Fin 2 → Nat) a + S512x512.size a ≤ S512x512.size a
  h_S512x512 : 0 < S512x512.numel
  inb_S512x28_S512x28_0_0 : ∀ a, (![0, 0] : Fin 2 → Nat) a + S512x28.size a ≤ S512x28.size a
  h_S512x28 : 0 < S512x28.numel
  inb_S512x1_S512x1_0_0 : ∀ a, (![0, 0] : Fin 2 → Nat) a + S512x1.size a ≤ S512x1.size a
  h_S512x1 : 0 < S512x1.numel
  concatenates_S512x512_S512x512_S512x28_S512x1_S512x1053_d1 : Shape.Concatenates [S512x512, S512x512, S512x28, S512x1] S512x1053 1
  inb_S1053x512_S1053x512_0_0 : ∀ a, (![0, 0] : Fin 2 → Nat) a + S1053x512.size a ≤ S1053x512.size a
  h_S1053x512 : 0 < S1053x512.numel
  shapeCasts_S1053x512_S1053x512 : S1053x512.ShapeCasts S1053x512
  inb_S512_S512_0 : ∀ a, (![0] : Fin 1 → Nat) a + S512.size a ≤ S512.size a
  h_S512 : 0 < S512.numel
  shapeCasts_S512_S1x512 : S512.ShapeCasts S1x512
  broadcasts_S1x512_S512x512 : S1x512.Broadcasts S512x512
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S128_S128_0 : ∀ a, (![0] : Fin 1 → Nat) a + S128.size a ≤ S128.size a
  h_S128 : 0 < S128.numel
  shapeCasts_S128_S1x128 : S128.ShapeCasts S1x128
  broadcasts_S1x128_S512x128 : S1x128.Broadcasts S512x128
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1_S1_0 : ∀ a, (![0] : Fin 1 → Nat) a + S1.size a ≤ S1.size a
  h_S1 : 0 < S1.numel
  shapeCasts_S1_S1x1 : S1.ShapeCasts S1x1
  broadcasts_S1x1_S512x1 : S1x1.Broadcasts S512x1
  inb_S512x1536_S512x1536_0_0 : ∀ a, (![0, 0] : Fin 2 → Nat) a + S512x1536.size a ≤ S512x1536.size a
  h_S512x1536 : 0 < S512x1536.numel
  shapeCasts_S512x1536_S512x1536 : S512x1536.ShapeCasts S512x1536
  inb_S1536_S1536_0 : ∀ a, (![0] : Fin 1 → Nat) a + S1536.size a ≤ S1536.size a
  h_S1536 : 0 < S1536.numel
  shapeCasts_S1536_S1x1536 : S1536.ShapeCasts S1x1536
  broadcasts_S1x1536_S512x1536 : S1x1536.Broadcasts S512x1536
  slices_S512x1536_o0_0_S512x512 : S512x1536.Slices ![0, 0] S512x512
  slices_S512x1536_o0_512_S512x512 : S512x1536.Slices ![0, 512] S512x512
  slices_S512x1536_o0_1024_S512x512 : S512x1536.Slices ![0, 1024] S512x512
  broadcasts_S512x1_S512x512 : S512x1.Broadcasts S512x512
  reduces_S512x512_S512 : S512x512.Reduces [1] S512
  shapeCasts_S512_S512x1 : S512.ShapeCasts S512x1
  dot_S512x1053_S1053x512_S512x512_1_0_0_1_n_n_wf : DotDims.WF S512x1053 S1053x512 S512x512 [1] [0] [0] [1] [] []
  dot_S512x512_S512x128_S512x128_1_0_0_1_n_n_wf : DotDims.WF S512x512 S512x128 S512x128 [1] [0] [0] [1] [] []
  dot_S512x128_S128x1_S512x1_1_0_0_1_n_n_wf : DotDims.WF S512x128 S128x1 S512x1 [1] [0] [0] [1] [] []
  dot_S512x512_S512x1536_S512x1536_1_0_0_1_n_n_wf : DotDims.WF S512x512 S512x1536 S512x1536 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S16384x512.size a
  hwx0_0 : ∀ i : grid0.Coords, EltTy.bits .f32 = 32 ∨ (Rect.block (s := S16384x512) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S16384x512.size a
  hwx0_1 : ∀ i : grid0.Coords, EltTy.bits .f32 = 32 ∨ (Rect.block (s := S16384x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x28.size a ≤ S16384x28.size a
  hwx0_2 : ∀ i : grid0.Coords, EltTy.bits .f32 = 32 ∨ (Rect.block (s := S16384x28) S512x28.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S16384x1.size a
  hwx0_3 : ∀ i : grid0.Coords, EltTy.bits .f32 = 32 ∨ (Rect.block (s := S16384x1) S512x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1053x512.size a ≤ S1053x512.size a
  hwx0_4 : ∀ i : grid0.Coords, EltTy.bits .bf16 = 32 ∨ (Rect.block (s := S1053x512) S1053x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512.size a ≤ S512.size a
  hwx0_5 : ∀ i : grid0.Coords, EltTy.bits .f32 = 32 ∨ (Rect.block (s := S512) S512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x1536.size a ≤ S512x1536.size a
  hwx0_6 : ∀ i : grid0.Coords, EltTy.bits .bf16 = 32 ∨ (Rect.block (s := S512x1536) S512x1536.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1536.size a ≤ S1536.size a
  hwx0_7 : ∀ i : grid0.Coords, EltTy.bits .f32 = 32 ∨ (Rect.block (s := S1536) S1536.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S512x1536.size a ≤ S512x1536.size a
  hwx0_8 : ∀ i : grid0.Coords, EltTy.bits .bf16 = 32 ∨ (Rect.block (s := S512x1536) S512x1536.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1536.size a ≤ S1536.size a
  hwx0_9 : ∀ i : grid0.Coords, EltTy.bits .f32 = 32 ∨ (Rect.block (s := S1536) S1536.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S512.size a ≤ S512.size a
  hwx0_10 : ∀ i : grid0.Coords, EltTy.bits .f32 = 32 ∨ (Rect.block (s := S512) S512.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S512.size a ≤ S512.size a
  hwx0_11 : ∀ i : grid0.Coords, EltTy.bits .f32 = 32 ∨ (Rect.block (s := S512) S512.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S512x128.size a ≤ S512x128.size a
  hwx0_12 : ∀ i : grid0.Coords, EltTy.bits .bf16 = 32 ∨ (Rect.block (s := S512x128) S512x128.size (cc0_transform_12 i) (hinb0_12 i)).WholeWords (EltTy.packing .bf16)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S128.size a ≤ S128.size a
  hwx0_13 : ∀ i : grid0.Coords, EltTy.bits .f32 = 32 ∨ (Rect.block (s := S128) S128.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S128x1.size a ≤ S128x1.size a
  hwx0_14 : ∀ i : grid0.Coords, EltTy.bits .bf16 = 32 ∨ (Rect.block (s := S128x1) S128x1.size (cc0_transform_14 i) (hinb0_14 i)).WholeWords (EltTy.packing .bf16)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1.size a ≤ S1.size a
  hwx0_15 : ∀ i : grid0.Coords, EltTy.bits .f32 = 32 ∨ (Rect.block (s := S1) S1.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S512x512.size a ≤ S16384x512.size a
  hwx0_16 : ∀ i : grid0.Coords, EltTy.bits .f32 = 32 ∨ (Rect.block (s := S16384x512) S512x512.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S512x512.size a ≤ S16384x512.size a
  hwx0_17 : ∀ i : grid0.Coords, EltTy.bits .f32 = 32 ∨ (Rect.block (s := S16384x512) S512x512.size (cc0_transform_17 i) (hinb0_17 i)).WholeWords (EltTy.packing .f32)

variable [Facts₀]

def dot_S512x1053_S1053x512_S512x512_1_0_0_1_n_n : DotDims S512x1053 S1053x512 S512x512 where
  lhsContracting := [1]
  rhsContracting := [0]
  lhsNonContracting := [0]
  rhsNonContracting := [1]
  lhsBatch := []
  rhsBatch := []
  wf := dot_S512x1053_S1053x512_S512x512_1_0_0_1_n_n_wf
def dot_S512x512_S512x128_S512x128_1_0_0_1_n_n : DotDims S512x512 S512x128 S512x128 where
  lhsContracting := [1]
  rhsContracting := [0]
  lhsNonContracting := [0]
  rhsNonContracting := [1]
  lhsBatch := []
  rhsBatch := []
  wf := dot_S512x512_S512x128_S512x128_1_0_0_1_n_n_wf
def dot_S512x128_S128x1_S512x1_1_0_0_1_n_n : DotDims S512x128 S128x1 S512x1 where
  lhsContracting := [1]
  rhsContracting := [0]
  lhsNonContracting := [0]
  rhsNonContracting := [1]
  lhsBatch := []
  rhsBatch := []
  wf := dot_S512x128_S128x1_S512x1_1_0_0_1_n_n_wf
def dot_S512x512_S512x1536_S512x1536_1_0_0_1_n_n : DotDims S512x512 S512x1536 S512x1536 where
  lhsContracting := [1]
  rhsContracting := [0]
  lhsNonContracting := [0]
  rhsNonContracting := [1]
  lhsBatch := []
  rhsBatch := []
  wf := dot_S512x512_S512x1536_S512x1536_1_0_0_1_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x28.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1053x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S512x1536.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S1536.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v5) S512x1536.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S1536.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S512.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S512.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v7) S512x128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg13) S128.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v9) S128x1.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg15) S1.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v10_0) S512x512.size cc0_transform_16 reads0_16 true false 2 stage0_16 sem0_16
    hrank0 hreads0_16 hinb0_16 nbuf0_16 (Memref.isWhole_whole _) hwx0_16 hstage0_16

abbrev win0_17 : Pipeline.Window sig grid0 :=
  Pipeline.Window.ofSpec (Memref.whole main_v10_1) S512x512.size cc0_transform_17 reads0_17 true false 2 stage0_17 sem0_17
    hrank0 hreads0_17 hinb0_17 nbuf0_17 (Memref.isWhole_whole _) hwx0_17 hstage0_17

abbrev win0 : Fin 18 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | ⟨_ + 18, h⟩ => absurd h (Nat.not_lt.2 (Nat.le_add_left _ _))
abbrev spec0 : Fin 18 → Pipeline.WinSpec sig grid0.rank := fun w => (win0 w).toWinSpec

class Facts : Prop extends Facts₀ where

variable [Facts]
-- ==== ReferenceIdeal.lean ====
abbrev S16384x512 : Shape := ⟨2, ![16384, 512]⟩
abbrev S16384x28 : Shape := ⟨2, ![16384, 28]⟩
abbrev S16384x1 : Shape := ⟨2, ![16384, 1]⟩
abbrev S512x1053 : Shape := ⟨2, ![512, 1053]⟩
abbrev S512 : Shape := ⟨1, ![512]⟩
abbrev S1536x512 : Shape := ⟨2, ![1536, 512]⟩
abbrev S1536 : Shape := ⟨1, ![1536]⟩
abbrev S128x512 : Shape := ⟨2, ![128, 512]⟩
abbrev S128 : Shape := ⟨1, ![128]⟩
abbrev S1x128 : Shape := ⟨2, ![1, 128]⟩
abbrev S1 : Shape := ⟨1, ![1]⟩
abbrev S16384x1053 : Shape := ⟨2, ![16384, 1053]⟩
abbrev S1053x512 : Shape := ⟨2, ![1053, 512]⟩
abbrev S1x512 : Shape := ⟨2, ![1, 512]⟩
abbrev S_ : Shape := ⟨0, ![]⟩
abbrev S512x128 : Shape := ⟨2, ![512, 128]⟩
abbrev S16384x128 : Shape := ⟨2, ![16384, 128]⟩
abbrev S128x1 : Shape := ⟨2, ![128, 1]⟩
abbrev S1x1 : Shape := ⟨2, ![1, 1]⟩
abbrev S512x1536 : Shape := ⟨2, ![512, 1536]⟩
abbrev S16384x1536 : Shape := ⟨2, ![16384, 1536]⟩
abbrev S1x1536 : Shape := ⟨2, ![1, 1536]⟩
abbrev S16384 : Shape := ⟨1, ![16384]⟩

abbrev nBuf : Space → Nat
  | .hbm => 122
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x28, .f32⟩
  | .hbm, ⟨3, _⟩ => ⟨S16384x1, .f32⟩
  | .hbm, ⟨4, _⟩ => ⟨S512x1053, .f32⟩
  | .hbm, ⟨5, _⟩ => ⟨S512, .f32⟩
  | .hbm, ⟨6, _⟩ => ⟨S1536x512, .f32⟩
  | .hbm, ⟨7, _⟩ => ⟨S1536, .f32⟩
  | .hbm, ⟨8, _⟩ => ⟨S1536x512, .f32⟩
  | .hbm, ⟨9, _⟩ => ⟨S1536, .f32⟩
  | .hbm, ⟨10, _⟩ => ⟨S512, .f32⟩
  | .hbm, ⟨11, _⟩ => ⟨S512, .f32⟩
  | .hbm, ⟨12, _⟩ => ⟨S128x512, .f32⟩
  | .hbm, ⟨13, _⟩ => ⟨S128, .f32⟩
  | .hbm, ⟨14, _⟩ => ⟨S1x128, .f32⟩
  | .hbm, ⟨15, _⟩ => ⟨S1, .f32⟩
  | .hbm, ⟨16, _⟩ => ⟨S16384x1053, .f32⟩
  | .hbm, ⟨17, _⟩ => ⟨S1053x512, .f32⟩
  | .hbm, ⟨18, _⟩ => ⟨S16384x512, .f32⟩
  | .hbm, ⟨19, _⟩ => ⟨S1x512, .f32⟩
  | .hbm, ⟨20, _⟩ => ⟨S16384x512, .f32⟩
  | .hbm, ⟨21, _⟩ => ⟨S16384x512, .f32⟩
  | .hbm, ⟨22, _⟩ => ⟨S_, .f32⟩
  | .hbm, ⟨23, _⟩ => ⟨S16384x512, .f32⟩
  | .hbm, ⟨24, _⟩ => ⟨S16384x512, .f32⟩
  | .hbm, ⟨25, _⟩ => ⟨S512x128, .f32⟩
  | .hbm, ⟨26, _⟩ => ⟨S16384x128, .f32⟩
  | .hbm, ⟨27, _⟩ => ⟨S1x128, .f32⟩
  | .hbm, ⟨28, _⟩ => ⟨S16384x128, .f32⟩
  | .hbm, ⟨29, _⟩ => ⟨S16384x128, .f32⟩
  | .hbm, ⟨30, _⟩ => ⟨S_, .f32⟩
  | .hbm, ⟨31, _⟩ => ⟨S16384x128, .f32⟩
  | .hbm, ⟨32, _⟩ => ⟨S16384x128, .f32⟩
  | .hbm, ⟨33, _⟩ => ⟨S128x1, .f32⟩
  | .hbm, ⟨34, _⟩ => ⟨S16384x1, .f32⟩
  | .hbm, ⟨35, _⟩ => ⟨S1x1, .f32⟩
  | .hbm, ⟨36, _⟩ => ⟨S16384x1, .f32⟩
  | .hbm, ⟨37, _⟩ => ⟨S16384x1, .f32⟩
  | .hbm, ⟨38, _⟩ => ⟨S16384x1, .f32⟩
  | .hbm, ⟨39, _⟩ => ⟨S16384x1, .f32⟩
  | .hbm, ⟨40, _⟩ => ⟨S_, .f32⟩
  | .hbm, ⟨41, _⟩ => ⟨S16384x1, .f32⟩
  | .hbm, ⟨42, _⟩ => ⟨S16384x1, .f32⟩
  | .hbm, ⟨43, _⟩ => ⟨S_, .f32⟩
  | .hbm, ⟨44, _⟩ => ⟨S16384x1, .f32⟩
  | .hbm, ⟨45, _⟩ => ⟨S16384x1, .f32⟩
  | .hbm, ⟨46, _⟩ => ⟨S512x1536, .f32⟩
  | .hbm, ⟨47, _⟩ => ⟨S16384x1536, .f32⟩
  | .hbm, ⟨48, _⟩ => ⟨S1x1536, .f32⟩
  | .hbm, ⟨49, _⟩ => ⟨S16384x1536, .f32⟩
  | .hbm, ⟨50, _⟩ => ⟨S16384x1536, .f32⟩
  | .hbm, ⟨51, _⟩ => ⟨S512x1536, .f32⟩
  | .hbm, ⟨52, _⟩ => ⟨S16384x1536, .f32⟩
  | .hbm, ⟨53, _⟩ => ⟨S1x1536, .f32⟩
  | .hbm, ⟨54, _⟩ => ⟨S16384x1536, .f32⟩
  | .hbm, ⟨55, _⟩ => ⟨S16384x1536, .f32⟩
  | .hbm, ⟨56, _⟩ => ⟨S16384x512, .f32⟩
  | .hbm, ⟨57, _⟩ => ⟨S16384x512, .f32⟩
  | .hbm, ⟨58, _⟩ => ⟨S16384x512, .f32⟩
  | .hbm, ⟨59, _⟩ => ⟨S16384x512, .f32⟩
  | .hbm, ⟨60, _⟩ => ⟨S16384x512, .f32⟩
  | .hbm, ⟨61, _⟩ => ⟨S16384x512, .f32⟩
  | .hbm, ⟨62, _⟩ => ⟨S16384x512, .f32⟩
  | .hbm, ⟨63, _⟩ => ⟨S16384x512, .f32⟩
  | .hbm, ⟨64, _⟩ => ⟨S16384x512, .f32⟩
  | .hbm, ⟨65, _⟩ => ⟨S_, .f32⟩
  | .hbm, ⟨66, _⟩ => ⟨S16384x512, .f32⟩
  | .hbm, ⟨67, _⟩ => ⟨S16384x512, .f32⟩
  | .hbm, ⟨68, _⟩ => ⟨S_, .f32⟩
  | .hbm, ⟨69, _⟩ => ⟨S16384x512, .f32⟩
  | .hbm, ⟨70, _⟩ => ⟨S16384x512, .f32⟩
  | .hbm, ⟨71, _⟩ => ⟨S16384x512, .f32⟩
  | .hbm, ⟨72, _⟩ => ⟨S16384x512, .f32⟩
  | .hbm, ⟨73, _⟩ => ⟨S16384x512, .f32⟩
  | .hbm, ⟨74, _⟩ => ⟨S_, .f32⟩
  | .hbm, ⟨75, _⟩ => ⟨S16384x512, .f32⟩
  | .hbm, ⟨76, _⟩ => ⟨S16384x512, .f32⟩
  | .hbm, ⟨77, _⟩ => ⟨S_, .f32⟩
  | .hbm, ⟨78, _⟩ => ⟨S16384x512, .f32⟩
  | .hbm, ⟨79, _⟩ => ⟨S16384x512, .f32⟩
  | .hbm, ⟨80, _⟩ => ⟨S16384x512, .f32⟩
  | .hbm, ⟨81, _⟩ => ⟨S16384x512, .f32⟩
  | .hbm, ⟨82, _⟩ => ⟨S16384x512, .f32⟩
  | .hbm, ⟨83, _⟩ => ⟨S_, .f32⟩
  | .hbm, ⟨84, _⟩ => ⟨S16384x512, .f32⟩
  | .hbm, ⟨85, _⟩ => ⟨S16384x512, .f32⟩
  | .hbm, ⟨86, _⟩ => ⟨S16384x512, .f32⟩
  | .hbm, ⟨87, _⟩ => ⟨S16384x512, .f32⟩
  | .hbm, ⟨88, _⟩ => ⟨S16384x512, .f32⟩
  | .hbm, ⟨89, _⟩ => ⟨S16384x512, .f32⟩
  | .hbm, ⟨90, _⟩ => ⟨S16384x512, .f32⟩
  | .hbm, ⟨91, _⟩ => ⟨S16384x512, .f32⟩
  | .hbm, ⟨92, _⟩ => ⟨S16384x512, .f32⟩
  | .hbm, ⟨93, _⟩ => ⟨S_, .f32⟩
  | .hbm, ⟨94, _⟩ => ⟨S16384, .f32⟩
  | .hbm, ⟨95, _⟩ => ⟨S16384x1, .f32⟩
  | .hbm, ⟨96, _⟩ => ⟨S_, .f32⟩
  | .hbm, ⟨97, _⟩ => ⟨S16384x1, .f32⟩
  | .hbm, ⟨98, _⟩ => ⟨S16384x1, .f32⟩
  | .hbm, ⟨99, _⟩ => ⟨S16384x512, .f32⟩
  | .hbm, ⟨100, _⟩ => ⟨S16384x512, .f32⟩
  | .hbm, ⟨101, _⟩ => ⟨S16384x512, .f32⟩
  | .hbm, ⟨102, _⟩ => ⟨S_, .f32⟩
  | .hbm, ⟨103, _⟩ => ⟨S16384, .f32⟩
  | .hbm, ⟨104, _⟩ => ⟨S16384x1, .f32⟩
  | .hbm, ⟨105, _⟩ => ⟨S_, .f32⟩
  | .hbm, ⟨106, _⟩ => ⟨S16384x1, .f32⟩
  | .hbm, ⟨107, _⟩ => ⟨S16384x1, .f32⟩
  | .hbm, ⟨108, _⟩ => ⟨S16384x512, .f32⟩
  | .hbm, ⟨109, _⟩ => ⟨S16384x512, .f32⟩
  | .hbm, ⟨110, _⟩ => ⟨S1x512, .f32⟩
  | .hbm, ⟨111, _⟩ => ⟨S16384x512, .f32⟩
  | .hbm, ⟨112, _⟩ => ⟨S16384x512, .f32⟩
  | .hbm, ⟨113, _⟩ => ⟨S_, .f32⟩
  | .hbm, ⟨114, _⟩ => ⟨S16384x1, .f32⟩
  | .hbm, ⟨115, _⟩ => ⟨S16384x1, .f32⟩
  | .hbm, ⟨116, _⟩ => ⟨S16384x1, .f32⟩
  | .hbm, ⟨117, _⟩ => ⟨S16384x512, .f32⟩
  | .hbm, ⟨118, _⟩ => ⟨S16384x512, .f32⟩
  | .hbm, ⟨119, _⟩ => ⟨S1x512, .f32⟩
  | .hbm, ⟨120, _⟩ => ⟨S16384x512, .f32⟩
  | .hbm, ⟨121, _⟩ => ⟨S16384x512, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_call0_cst : Ref sig .tc := ⟨.hbm, 22, rfl⟩
abbrev main_call0_v0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_call1_cst : Ref sig .tc := ⟨.hbm, 30, rfl⟩
abbrev main_call1_v0 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_cst : Ref sig .tc := ⟨.hbm, 40, rfl⟩
abbrev main_v20 : Ref sig .tc := ⟨.hbm, 41, rfl⟩
abbrev main_v21 : Ref sig .tc := ⟨.hbm, 42, rfl⟩
abbrev main_cst_0 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_1 : Ref sig .tc := ⟨.hbm, 65, rfl⟩
abbrev main_v43 : Ref sig .tc := ⟨.hbm, 66, rfl⟩
abbrev main_v44 : Ref sig .tc := ⟨.hbm, 67, rfl⟩
abbrev main_cst_2 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_cst_3 : Ref sig .tc := ⟨.hbm, 74, rfl⟩
abbrev main_v50 : Ref sig .tc := ⟨.hbm, 75, rfl⟩
abbrev main_v51 : Ref sig .tc := ⟨.hbm, 76, rfl⟩
abbrev main_cst_4 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_5 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_cst_6 : Ref sig .tc := ⟨.hbm, 93, rfl⟩
abbrev main_v66 : Ref sig .tc := ⟨.hbm, 94, rfl⟩
abbrev main_v67 : Ref sig .tc := ⟨.hbm, 95, rfl⟩
abbrev main_cst_7 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_cst_8 : Ref sig .tc := ⟨.hbm, 102, rfl⟩
abbrev main_v73 : Ref sig .tc := ⟨.hbm, 103, rfl⟩
abbrev main_v74 : Ref sig .tc := ⟨.hbm, 104, rfl⟩
abbrev main_cst_9 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_cst_10 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩

abbrev nD : Nat := 1
abbrev τ : Topo := Topo.v7x

variable {F : FTy → Type} [FloatOps F]

class Facts₀ : Prop where
  concatenates_S16384x512_S16384x512_S16384x28_S16384x1_S16384x1053_d1 : Shape.Concatenates [S16384x512, S16384x512, S16384x28, S16384x1] S16384x1053 1
  transposes_S512x1053_S1053x512_1_0 : S512x1053.Transposes [1, 0] S1053x512
  bcast_S512_S1x512_1 : S512.BroadcastsInDim S1x512 (![1] : Fin 1 → Fin S1x512.rank)
  bcast_S1x512_S16384x512_0_1 : S1x512.BroadcastsInDim S16384x512 (![0, 1] : Fin 2 → Fin S16384x512.rank)
  bcast_S_S16384x512 : S_.BroadcastsInDim S16384x512 (![] : Fin 0 → Fin S16384x512.rank)
  transposes_S128x512_S512x128_1_0 : S128x512.Transposes [1, 0] S512x128
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  bcast_S_S16384x128 : S_.BroadcastsInDim S16384x128 (![] : Fin 0 → Fin S16384x128.rank)
  transposes_S1x128_S128x1_1_0 : S1x128.Transposes [1, 0] S128x1
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  bcast_S_S16384x1 : S_.BroadcastsInDim S16384x1 (![] : Fin 0 → Fin S16384x1.rank)
  transposes_S1536x512_S512x1536_1_0 : S1536x512.Transposes [1, 0] S512x1536
  bcast_S1536_S1x1536_1 : S1536.BroadcastsInDim S1x1536 (![1] : Fin 1 → Fin S1x1536.rank)
  bcast_S1x1536_S16384x1536_0_1 : S1x1536.BroadcastsInDim S16384x1536 (![0, 1] : Fin 2 → Fin S16384x1536.rank)
  slices_S16384x1536_S16384x512_0_0 : S16384x1536.Slices ![0, 0] S16384x512
  slices_S16384x1536_S16384x512_0_512 : S16384x1536.Slices ![0, 512] S16384x512
  slices_S16384x1536_S16384x512_0_1024 : S16384x1536.Slices ![0, 1024] S16384x512
  bcast_S16384x1_S16384x512_0_1 : S16384x1.BroadcastsInDim S16384x512 (![0, 1] : Fin 2 → Fin S16384x512.rank)
  reducesTo_S16384x512_S16384_d1 : S16384x512.ReducesTo [1] S16384
  h_S_ : 0 < S_.numel
  bcast_S16384_S16384x1_0 : S16384.BroadcastsInDim S16384x1 (![0] : Fin 1 → Fin S16384x1.rank)
  dot_S16384x1053_S1053x512_S16384x512_1_0_0_1_n_n_wf : DotDims.WF S16384x1053 S1053x512 S16384x512 [1] [0] [0] [1] [] []
  dot_S16384x512_S512x128_S16384x128_1_0_0_1_n_n_wf : DotDims.WF S16384x512 S512x128 S16384x128 [1] [0] [0] [1] [] []
  dot_S16384x128_S128x1_S16384x1_1_0_0_1_n_n_wf : DotDims.WF S16384x128 S128x1 S16384x1 [1] [0] [0] [1] [] []
  dot_S16384x512_S512x1536_S16384x1536_1_0_0_1_n_n_wf : DotDims.WF S16384x512 S512x1536 S16384x1536 [1] [0] [0] [1] [] []

variable [Facts₀]

def dot_S16384x1053_S1053x512_S16384x512_1_0_0_1_n_n : DotDims S16384x1053 S1053x512 S16384x512 where
  lhsContracting := [1]
  rhsContracting := [0]
  lhsNonContracting := [0]
  rhsNonContracting := [1]
  lhsBatch := []
  rhsBatch := []
  wf := dot_S16384x1053_S1053x512_S16384x512_1_0_0_1_n_n_wf
def dot_S16384x512_S512x128_S16384x128_1_0_0_1_n_n : DotDims S16384x512 S512x128 S16384x128 where
  lhsContracting := [1]
  rhsContracting := [0]
  lhsNonContracting := [0]
  rhsNonContracting := [1]
  lhsBatch := []
  rhsBatch := []
  wf := dot_S16384x512_S512x128_S16384x128_1_0_0_1_n_n_wf
def dot_S16384x128_S128x1_S16384x1_1_0_0_1_n_n : DotDims S16384x128 S128x1 S16384x1 where
  lhsContracting := [1]
  rhsContracting := [0]
  lhsNonContracting := [0]
  rhsNonContracting := [1]
  lhsBatch := []
  rhsBatch := []
  wf := dot_S16384x128_S128x1_S16384x1_1_0_0_1_n_n_wf
def dot_S16384x512_S512x1536_S16384x1536_1_0_0_1_n_n : DotDims S16384x512 S512x1536 S16384x1536 where
  lhsContracting := [1]
  rhsContracting := [0]
  lhsNonContracting := [0]
  rhsNonContracting := [1]
  lhsBatch := []
  rhsBatch := []
  wf := dot_S16384x512_S512x1536_S16384x1536_1_0_0_1_n_n_wf

class Facts : Prop extends Facts₀ where

variable [Facts]
-- ==== Proof.RowSpec.lean ====
/-
  One row of the game processor, as mathematics on the extended reals.

  A row of the batch is four pieces laid side by side — the team's embedding (512 entries), the opponent's (512), the
  game's features (28) and the outcome (1) — 1053 numbers `x`. From them:
    projected  p j = max (∑ₖ x k · Wp j k + bp j) 0                                  (the input projection, ReLU)
    importance s   = logistic (∑ₖ max (∑ⱼ p j · W1 k j + b1 k) 0 · W2 k + b2)         (the two-layer gate, one number a row)
    gi c = ∑ⱼ p j · Wih c j + bih c,   gh c = ∑ⱼ t j · Whh c j + bhh c                (the cell's two linear maps, 1536 wide,
                                                                                       `t` the team's embedding)
    r j = logistic (gi j + gh j),  z j = logistic (gi (512+j) + gh (512+j)),  n j = tanh (gi (1024+j) + r j · gh (1024+j))
    e j = (1 − z j) · n j + z j · t j                                                 (the cell's new state)
    u j = t j + s · (e j − t j)                                                       (the gated blend)
    μ = (∑ⱼ u j) / 512,  σ² = (∑ⱼ (u j − μ)²) / 512
    out j = γ j · (u j − μ) · rsqrt (σ² + ε) + β j                                    (the layer norm)
  Every operation is the exact one on the extended reals; 0, 1, 512 and ε stand for the values of the four binary32
  words 0x00000000, 0x3F800000, 0x44000000 and 0x3727C5AC. A row's results depend on no other row.
-/
import Idealize.ShloMosaic.PureOps.Ideal
import Idealize.ShloMosaic.Lib.ValueIdx

noncomputable section

namespace Cert.GameRow

open Idealize.ShloMosaic

/-- The values of the four binary32 words: zero, one, 512 and ε (the float nearest 1e-5). -/
abbrev zero : EReal := Ideal.ofBits .f32 0x00000000#32
abbrev one : EReal := Ideal.ofBits .f32 0x3F800000#32
abbrev width : EReal := Ideal.ofBits .f32 0x44000000#32
abbrev eps : EReal := Ideal.ofBits .f32 0x3727C5AC#32

/-- A matrix and a vector given as arrays over a shape, read by plain coordinates. -/
abbrev mat {a b : Nat} (A : (⟨2, ![a, b]⟩ : Shape).Idx → EReal) (r : Fin a) (k : Fin b) : EReal := A (ValueIdx.ix2 r k)
abbrev vec {a : Nat} (A : (⟨1, ![a]⟩ : Shape).Idx → EReal) (k : Fin a) : EReal := A (ValueIdx.ix1 k)

/-- The row's four pieces side by side: entry `k` of the 1053. -/
def joined (t o : Fin 512 → EReal) (f : Fin 28 → EReal) (w : EReal) (k : Fin 1053) : EReal :=
  if h : k.val < 512 then t ⟨k.val, h⟩
  else if h2 : k.val < 1024 then o ⟨k.val - 512, by omega⟩
  else if h3 : k.val < 1052 then f ⟨k.val - 1024, by omega⟩
  else w

/-- Columns `j`, `512 + j`, `1024 + j` of the cell's 1536-wide linear maps: the reset, update and candidate thirds. -/
abbrev third0 (j : Fin 512) : Fin 1536 := ⟨j.val, by omega⟩
abbrev third1 (j : Fin 512) : Fin 1536 := ⟨512 + j.val, by omega⟩
abbrev third2 (j : Fin 512) : Fin 1536 := ⟨1024 + j.val, by omega⟩

section
variable (Wp : Fin 512 → Fin 1053 → EReal) (bp : Fin 512 → EReal)
  (Wih : Fin 1536 → Fin 512 → EReal) (bih : Fin 1536 → EReal) (Whh : Fin 1536 → Fin 512 → EReal) (bhh : Fin 1536 → EReal)
  (gam bet : Fin 512 → EReal)
  (W1 : Fin 128 → Fin 512 → EReal) (b1 : Fin 128 → EReal) (W2 : Fin 128 → EReal) (b2 : EReal)
  (x : Fin 1053 → EReal) (t : Fin 512 → EReal)

/-- The input projection with its ReLU. -/
def projected (j : Fin 512) : EReal := max ((∑ k : Fin 1053, x k * Wp j k) + bp j) zero

/-- The hidden layer of the gate. -/
def hidden (k : Fin 128) : EReal := max ((∑ j : Fin 512, projected Wp bp x j * W1 k j) + b1 k) zero

/-- The gate: one number for the row. -/
def importance : EReal := Ideal.logistic ((∑ k : Fin 128, hidden Wp bp W1 b1 x k * W2 k) + b2)

/-- The cell's linear map of the projection, and of the team's embedding. -/
def gin (c : Fin 1536) : EReal := (∑ j : Fin 512, projected Wp bp x j * Wih c j) + bih c
def ghid (c : Fin 1536) : EReal := (∑ j : Fin 512, t j * Whh c j) + bhh c

def resetG (j : Fin 512) : EReal := Ideal.logistic (gin Wp bp Wih bih x (third0 j) + ghid Whh bhh t (third0 j))
def updateG (j : Fin 512) : EReal := Ideal.logistic (gin Wp bp Wih bih x (third1 j) + ghid Whh bhh t (third1 j))
def candidate (j : Fin 512) : EReal :=
  Ideal.tanh (gin Wp bp Wih bih x (third2 j) + resetG Wp bp Wih bih Whh bhh x t j * ghid Whh bhh t (third2 j))

/-- The cell's new state. -/
def newState (j : Fin 512) : EReal :=
  (one - updateG Wp bp Wih bih Whh bhh x t j) * candidate Wp bp Wih bih Whh bhh x t j + updateG Wp bp Wih bih Whh bhh x t j * t j

/-- The gated blend of the old embedding and the new state. -/
def blended (j : Fin 512) : EReal :=
  t j + importance Wp bp W1 b1 W2 b2 x * (newState Wp bp Wih bih Whh bhh x t j - t j)

/-- The row's mean and variance. -/
def mean : EReal := Ideal.div (∑ j : Fin 512, blended Wp bp Wih bih Whh bhh W1 b1 W2 b2 x t j) width
def variance : EReal :=
  Ideal.div (∑ j : Fin 512, (blended Wp bp Wih bih Whh bhh W1 b1 W2 b2 x t j - mean Wp bp Wih bih Whh bhh W1 b1 W2 b2 x t)
    * (blended Wp bp Wih bih Whh bhh W1 b1 W2 b2 x t j - mean Wp bp Wih bih Whh bhh W1 b1 W2 b2 x t)) width

/-- The layer norm of the blend: the updated embedding. -/
def updated (j : Fin 512) : EReal :=
  gam j * (blended Wp bp Wih bih Whh bhh W1 b1 W2 b2 x t j - mean Wp bp Wih bih Whh bhh W1 b1 W2 b2 x t)
    * Ideal.rsqrt (variance Wp bp Wih bih Whh bhh W1 b1 W2 b2 x t + eps) + bet j

end

end Cert.GameRow

end
-- ==== Proof.Results.lean ====
/-
  The two results over the whole batch, as functions of the sixteen argument arrays: entry (r, q) of the game context is
  the projection of batch row r at q; entry (r, q) of the updated embedding is the layer-normed blend of row r at q. The
  weight arrays are read in the layers' own layout (a layer's matrix has one row per output), the second gate layer's
  weights are the one row of its 1×128 matrix and its bias the one entry of its vector.
-/
import proofs.«165796_j67980742361453_1_alg».proof.Proof.RowSpec

noncomputable section

namespace Cert.GameRow

open Idealize.ShloMosaic

/-- Batch row `r` of the four batch arrays, side by side. -/
abbrev batchRow (A0 A1 : (⟨2, ![16384, 512]⟩ : Shape).Idx → EReal) (A2 : (⟨2, ![16384, 28]⟩ : Shape).Idx → EReal)
    (A3 : (⟨2, ![16384, 1]⟩ : Shape).Idx → EReal) (r : Fin 16384) : Fin 1053 → EReal :=
  joined (mat A0 r) (mat A1 r) (mat A2 r) (mat A3 r 0)

/-- The game context: the projection, row by row. -/
def contextOf (A0 A1 : (⟨2, ![16384, 512]⟩ : Shape).Idx → EReal) (A2 : (⟨2, ![16384, 28]⟩ : Shape).Idx → EReal)
    (A3 : (⟨2, ![16384, 1]⟩ : Shape).Idx → EReal) (A4 : (⟨2, ![512, 1053]⟩ : Shape).Idx → EReal)
    (A5 : (⟨1, ![512]⟩ : Shape).Idx → EReal) : (⟨2, ![16384, 512]⟩ : Shape).Idx → EReal :=
  fun i => projected (mat A4) (vec A5) (batchRow A0 A1 A2 A3 (i 0)) (i 1)

/-- The updated embedding: the layer-normed blend, row by row. -/
def updatedOf (A0 A1 : (⟨2, ![16384, 512]⟩ : Shape).Idx → EReal) (A2 : (⟨2, ![16384, 28]⟩ : Shape).Idx → EReal)
    (A3 : (⟨2, ![16384, 1]⟩ : Shape).Idx → EReal) (A4 : (⟨2, ![512, 1053]⟩ : Shape).Idx → EReal)
    (A5 : (⟨1, ![512]⟩ : Shape).Idx → EReal) (A6 : (⟨2, ![1536, 512]⟩ : Shape).Idx → EReal)
    (A7 : (⟨1, ![1536]⟩ : Shape).Idx → EReal) (A8 : (⟨2, ![1536, 512]⟩ : Shape).Idx → EReal)
    (A9 : (⟨1, ![1536]⟩ : Shape).Idx → EReal) (A10 A11 : (⟨1, ![512]⟩ : Shape).Idx → EReal)
    (A12 : (⟨2, ![128, 512]⟩ : Shape).Idx → EReal) (A13 : (⟨1, ![128]⟩ : Shape).Idx → EReal)
    (A14 : (⟨2, ![1, 128]⟩ : Shape).Idx → EReal) (A15 : (⟨1, ![1]⟩ : Shape).Idx → EReal) :
    (⟨2, ![16384, 512]⟩ : Shape).Idx → EReal :=
  fun i => updated (mat A4) (vec A5) (mat A6) (vec A7) (mat A8) (vec A9) (vec A10) (vec A11)
    (mat A12) (vec A13) (mat A14 0) (vec A15 0) (batchRow A0 A1 A2 A3 (i 0)) (mat A0 (i 0)) (i 1)

end Cert.GameRow

end
-- ==== Proof.Blocks.lean ====
/-
  The kernel's grid walks the batch in 32 blocks of 512 rows. Point `t` stages rows 512·t … 512·t + 511 of the four
  batch arrays (team, opponent, features, outcome) and, whole, the weight arrays: the five weight matrices as the host
  transposed them before the call, the biases and the two layer-norm vectors as they are. It writes back the same 512 rows of
  the two results. Here: each staged block read entry by entry as the argument array it came from, what the body leaves in the
  two output blocks as the body's pure terms, and the two output windows' blocks as row ranges that cover their arrays.
-/
import proofs.«165796_j67980742361453_1_alg».proof.Proof.Gen.KernelIdeal.Value
import Idealize.ShloMosaic.Lib.Pipeline.Value
import Idealize.ShloMosaic.Lib.ValueIdx
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelBlocks

open Cert.KernelIdeal Cert.KernelIdeal.Gen Cert.KernelIdeal.Value Idealize.ShloMosaic.ValueIdx

variable (m : (ℓ : Loc nD τ sig) → Buf (Elt Ideal) ℓ)

theorem hz2 : (![0, 0] : Fin 2 → Nat) = fun _ => 0 := funext fun a => by fin_cases a <;> rfl
theorem hz1 : (![0] : Fin 1 → Nat) = fun _ => 0 := funext fun a => by fin_cases a; rfl

/-! ## What the body leaves in the two output blocks -/

/-- The updated-embedding block is the layer norm's term of the blend, its row means and row variances. -/
theorem out16_eq (x0 x1 : Vec Ideal S512x512 .f32) (x2 : Vec Ideal S512x28 .f32) (x3 : Vec Ideal S512x1 .f32)
    (x4 : Vec Ideal S1053x512 .bf16) (x5 : Vec Ideal S512 .f32) (x6 : Vec Ideal S512x1536 .bf16) (x7 : Vec Ideal S1536 .f32)
    (x8 : Vec Ideal S512x1536 .bf16) (x9 : Vec Ideal S1536 .f32) (x10 x11 : Vec Ideal S512 .f32)
    (x12 : Vec Ideal S512x128 .bf16) (x13 : Vec Ideal S128 .f32) (x14 : Vec Ideal S128x1 .bf16) (x15 : Vec Ideal S1 .f32) :
    out0_16 (F := Ideal) x0 x1 x2 x3 x4 x5 x6 x7 x8 x9 x10 x11 x12 x13 x14 x15
      = k0_pay1 (k0_pay6 x0 (k0_pay3 x0 x1 x2 x3 x4 x5) (k0_pay4 x0 x1 x2 x3 x4 x5 x12 x13 x14 x15) (k0_pay5 x0) x6 x7 x8 x9)
          (k0_pay7 x0 (k0_pay3 x0 x1 x2 x3 x4 x5) (k0_pay4 x0 x1 x2 x3 x4 x5 x12 x13 x14 x15) (k0_pay5 x0) x6 x7 x8 x9)
          (k0_pay8 x0 (k0_pay3 x0 x1 x2 x3 x4 x5) (k0_pay4 x0 x1 x2 x3 x4 x5 x12 x13 x14 x15) (k0_pay5 x0) x6 x7 x8 x9)
          x10 x11 := by
  unfold out0_16
  rw [View.canon_unit_zero hz2]
  simp only [View.ld_unit_zero (S := S512x512) hz2, View.ld_unit_zero (S := S512x28) hz2, View.ld_unit_zero (S := S512x1) hz2,
    View.ld_unit_zero (S := S1053x512) hz2, View.ld_unit_zero (S := S512) hz1, View.ld_unit_zero (S := S512x128) hz2,
    View.ld_unit_zero (S := S128) hz1, View.ld_unit_zero (S := S128x1) hz2, View.ld_unit_zero (S := S1) hz1,
    View.ld_unit_zero (S := S512x1536) hz2, View.ld_unit_zero (S := S1536) hz1]

/-- The game-context block is the projection's term. -/
theorem out17_eq (x0 x1 : Vec Ideal S512x512 .f32) (x2 : Vec Ideal S512x28 .f32) (x3 : Vec Ideal S512x1 .f32)
    (x4 : Vec Ideal S1053x512 .bf16) (x5 : Vec Ideal S512 .f32) (x6 : Vec Ideal S512x1536 .bf16) (x7 : Vec Ideal S1536 .f32)
    (x8 : Vec Ideal S512x1536 .bf16) (x9 : Vec Ideal S1536 .f32) (x10 x11 : Vec Ideal S512 .f32)
    (x12 : Vec Ideal S512x128 .bf16) (x13 : Vec Ideal S128 .f32) (x14 : Vec Ideal S128x1 .bf16) (x15 : Vec Ideal S1 .f32) :
    out0_17 (F := Ideal) x0 x1 x2 x3 x4 x5 x6 x7 x8 x9 x10 x11 x12 x13 x14 x15 = k0_pay2 x0 x1 x2 x3 x4 x5 := by
  unfold out0_17
  rw [View.canon_unit_zero hz2]
  simp only [View.ld_unit_zero (S := S512x512) hz2, View.ld_unit_zero (S := S512x28) hz2, View.ld_unit_zero (S := S512x1) hz2,
    View.ld_unit_zero (S := S1053x512) hz2, View.ld_unit_zero (S := S512) hz1]

/-! ## The staged blocks as the arrays they came from -/

/-- The printed index maps over the grid: the four batch windows and the two result windows are at block row `t`, block column
    0; the twelve weight windows stay at block 0. -/
theorem idx_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_16.index t (0 : Fin 2) = t.val ∧ win0_16.index t (1 : Fin 2) = 0
    ∧ win0_17.index t (0 : Fin 2) = t.val ∧ win0_17.index t (1 : Fin 2) = 0 :=
  (by decide +kernel : ∀ t : Fin grid0.N, _)

theorem idx_weights : ∀ t : Fin cfg0.N,
    win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 1) = 0
    ∧ win0_8.index t (0 : Fin 2) = 0 ∧ win0_8.index t (1 : Fin 2) = 0
    ∧ win0_9.index t (0 : Fin 1) = 0
    ∧ win0_10.index t (0 : Fin 1) = 0
    ∧ win0_11.index t (0 : Fin 1) = 0
    ∧ win0_12.index t (0 : Fin 2) = 0 ∧ win0_12.index t (1 : Fin 2) = 0
    ∧ win0_13.index t (0 : Fin 1) = 0
    ∧ win0_14.index t (0 : Fin 2) = 0 ∧ win0_14.index t (1 : Fin 2) = 0
    ∧ win0_15.index t (0 : Fin 1) = 0 :=
  (by decide +kernel : ∀ t : Fin grid0.N, _)

theorem point_lt (t : Fin cfg0.N) : t.val < 32 := by
  exact lt_of_lt_of_eq t.isLt N_0

/-- Row `p` of point `t`'s blocks is row `512·t + p` of the batch. -/
def rowOf (t : Fin cfg0.N) (p : Fin 512) : Fin 16384 := ⟨512 * t.val + p.val, by have := point_lt t; omega⟩

/-- The team block. -/
theorem blk0 (c : Dev nD) (t : Fin cfg0.N) (p k : Fin 512) :
    (iblk m c 0 t : Vec Ideal S512x512 .f32) (ix2 p k)
      = (m ((c : Thread nD τ).loc main_arg0) : S16384x512.Idx → EReal) (ix2 (rowOf t p) k) := by
  obtain ⟨e0, e1, -⟩ := idx_rows t
  unfold iblk
  rw [View.read_apply]
  show V m c main_arg0 _ = m (c.tc.loc main_arg0) _
  rw [V_main_arg0]
  congr 1
  funext a
  apply Fin.ext
  match a with
  | ⟨0, _⟩ => show win0_0.index t 0 * 512 + 1 * p.val = 512 * t.val + p.val; rw [e0]; omega
  | ⟨1, _⟩ => show win0_0.index t 1 * 512 + 1 * k.val = k.val; rw [e1]; omega

/-- The opponent block. -/
theorem blk1 (c : Dev nD) (t : Fin cfg0.N) (p k : Fin 512) :
    (iblk m c 1 t : Vec Ideal S512x512 .f32) (ix2 p k)
      = (m ((c : Thread nD τ).loc main_arg1) : S16384x512.Idx → EReal) (ix2 (rowOf t p) k) := by
  obtain ⟨-, -, e0, e1, -⟩ := idx_rows t
  unfold iblk
  rw [View.read_apply]
  show V m c main_arg1 _ = m (c.tc.loc main_arg1) _
  rw [V_main_arg1]
  congr 1
  funext a
  apply Fin.ext
  match a with
  | ⟨0, _⟩ => show win0_1.index t 0 * 512 + 1 * p.val = 512 * t.val + p.val; rw [e0]; omega
  | ⟨1, _⟩ => show win0_1.index t 1 * 512 + 1 * k.val = k.val; rw [e1]; omega

/-- The features block. -/
theorem blk2 (c : Dev nD) (t : Fin cfg0.N) (p : Fin 512) (k : Fin 28) :
    (iblk m c 2 t : Vec Ideal S512x28 .f32) (ix2 p k)
      = (m ((c : Thread nD τ).loc main_arg2) : S16384x28.Idx → EReal) (ix2 (rowOf t p) k) := by
  obtain ⟨-, -, -, -, e0, e1, -⟩ := idx_rows t
  unfold iblk
  rw [View.read_apply]
  show V m c main_arg2 _ = m (c.tc.loc main_arg2) _
  rw [V_main_arg2]
  congr 1
  funext a
  apply Fin.ext
  match a with
  | ⟨0, _⟩ => show win0_2.index t 0 * 512 + 1 * p.val = 512 * t.val + p.val; rw [e0]; omega
  | ⟨1, _⟩ => show win0_2.index t 1 * 28 + 1 * k.val = k.val; rw [e1]; omega

/-- The outcome block. -/
theorem blk3 (c : Dev nD) (t : Fin cfg0.N) (p : Fin 512) (k : Fin 1) :
    (iblk m c 3 t : Vec Ideal S512x1 .f32) (ix2 p k)
      = (m ((c : Thread nD τ).loc main_arg3) : S16384x1.Idx → EReal) (ix2 (rowOf t p) k) := by
  obtain ⟨-, -, -, -, -, -, e0, e1, -⟩ := idx_rows t
  unfold iblk
  rw [View.read_apply]
  show V m c main_arg3 _ = m (c.tc.loc main_arg3) _
  rw [V_main_arg3]
  congr 1
  funext a
  apply Fin.ext
  match a with
  | ⟨0, _⟩ => show win0_3.index t 0 * 512 + 1 * p.val = 512 * t.val + p.val; rw [e0]; omega
  | ⟨1, _⟩ => show win0_3.index t 1 * 1 + 1 * k.val = k.val; rw [e1]; omega

/-! The host's work before the call: each weight matrix transposed, then narrowed to bf16 (no change of value here). -/

theorem V_v1 (c : Dev nD) : (V m c main_v1 : FVec Ideal S1053x512 .bf16)
    = truncf (F := Ideal) .bf16 (transpose S1053x512 [1, 0] (m ((c : Thread nD τ).loc main_arg4)) transposes_S512x1053_S1053x512_1_0) bitsLt_bf16_f32 := by
  dsimp only [Gen.V, Gen.hostOps0]; after_results

/-- The staged projection weights: entry (k, j) is entry (j, k) of the argument. -/
theorem blk4 (c : Dev nD) (t : Fin cfg0.N) (k : Fin 1053) (j : Fin 512) :
    (iblk m c 4 t : Vec Ideal S1053x512 .bf16) (ix2 k j)
      = (m ((c : Thread nD τ).loc main_arg4) : S512x1053.Idx → EReal) (ix2 j k) := by
  obtain ⟨e0, e1, -⟩ := idx_weights t
  unfold iblk
  rw [View.read_apply]
  show V m c main_v1 _ = m (c.tc.loc main_arg4) _
  rw [V_v1]
  show transpose S1053x512 [1, 0] (m (c.tc.loc main_arg4)) transposes_S512x1053_S1053x512_1_0 (((cfg0.win 4).blk t).view.emb (ix2 k j)) = _
  refine (transpose_apply [1, 0] _ transposes_S512x1053_S1053x512_1_0 _ (ix2 j k) (fun b => ?_))
  match b with
  | ⟨0, _⟩ => show k.val = win0_4.index t 0 * 1053 + 1 * k.val; rw [e0]; omega
  | ⟨1, _⟩ => show j.val = win0_4.index t 1 * 512 + 1 * j.val; rw [e1]; omega

/-- The projection's bias. -/
theorem blk5 (c : Dev nD) (t : Fin cfg0.N) (j : Fin 512) :
    (iblk m c 5 t : Vec Ideal S512 .f32) (ix1 j) = (m ((c : Thread nD τ).loc main_arg5) : S512.Idx → EReal) (ix1 j) := by
  obtain ⟨-, -, e0, -⟩ := idx_weights t
  unfold iblk
  rw [View.read_apply]
  show V m c main_arg5 _ = m (c.tc.loc main_arg5) _
  rw [V_main_arg5]
  congr 1
  funext a
  apply Fin.ext
  match a with
  | ⟨0, _⟩ => show win0_5.index t 0 * 512 + 1 * j.val = j.val; rw [e0]; omega

/-! ## The two result windows' blocks cover their arrays -/

/-- Point `t`'s block of the updated-embedding array: the indices whose coordinates lie in the block's range on each axis. -/
theorem mem_blk16 (t : Fin cfg0.N) (i : S16384x512.Idx) :
    i ∈ ((cfg0.win 16).blk t).view.set ↔ ∀ a : Fin 2, win0_16.index t a * S512x512.size a ≤ (i a).val
      ∧ (i a).val < win0_16.index t a * S512x512.size a + S512x512.size a := by
  show i ∈ ((View.whole main_v10_0).slice (win0_16.rect t)).set ↔ _
  rw [View.set_slice_whole, Rect.mem_set_unit]
  exact Iff.rfl

theorem mem_blk17 (t : Fin cfg0.N) (i : S16384x512.Idx) :
    i ∈ ((cfg0.win 17).blk t).view.set ↔ ∀ a : Fin 2, win0_17.index t a * S512x512.size a ≤ (i a).val
      ∧ (i a).val < win0_17.index t a * S512x512.size a + S512x512.size a := by
  show i ∈ ((View.whole main_v10_1).slice (win0_17.rect t)).set ↔ _
  rw [View.set_slice_whole, Rect.mem_set_unit]
  exact Iff.rfl

/-- The point whose block holds row `r`: `r / 512`. -/
def pointOf (i : S16384x512.Idx) : Fin cfg0.N :=
  ⟨(i 0).val / 512, lt_of_lt_of_eq (by have h : (i 0).val < 16384 := (i 0).isLt; show (i 0).val / 512 < 32; omega) N_0.symm⟩

/-- Every index of the updated-embedding array lies in some point's block. -/
theorem cover16 (i : S16384x512.Idx) :
    ∃ t : Fin cfg0.N, (cfg0.win 16).flush t = true ∧ i ∈ ((cfg0.win 16).blk t).view.set := by
  have hi0 : (i 0).val < 16384 := (i 0).isLt
  have hi1 : (i 1).val < 512 := (i 1).isLt
  obtain ⟨-, -, -, -, -, -, -, -, e0, e1, -⟩ := idx_rows (pointOf i)
  refine ⟨pointOf i, flush0_16 _, ?_⟩
  rw [mem_blk16]
  intro a
  match a with
  | ⟨0, _⟩ =>
    show win0_16.index (pointOf i) 0 * 512 ≤ (i 0).val ∧ (i 0).val < win0_16.index (pointOf i) 0 * 512 + 512
    rw [e0]; show (i 0).val / 512 * 512 ≤ (i 0).val ∧ (i 0).val < (i 0).val / 512 * 512 + 512; omega
  | ⟨1, _⟩ =>
    show win0_16.index (pointOf i) 1 * 512 ≤ (i 1).val ∧ (i 1).val < win0_16.index (pointOf i) 1 * 512 + 512
    rw [e1]; omega

/-- Every index of the game-context array lies in some point's block. -/
theorem cover17 (i : S16384x512.Idx) :
    ∃ t : Fin cfg0.N, (cfg0.win 17).flush t = true ∧ i ∈ ((cfg0.win 17).blk t).view.set := by
  have hi0 : (i 0).val < 16384 := (i 0).isLt
  have hi1 : (i 1).val < 512 := (i 1).isLt
  obtain ⟨-, -, -, -, -, -, -, -, -, -, e0, e1⟩ := idx_rows (pointOf i)
  refine ⟨pointOf i, flush0_17 _, ?_⟩
  rw [mem_blk17]
  intro a
  match a with
  | ⟨0, _⟩ =>
    show win0_17.index (pointOf i) 0 * 512 ≤ (i 0).val ∧ (i 0).val < win0_17.index (pointOf i) 0 * 512 + 512
    rw [e0]; show (i 0).val / 512 * 512 ≤ (i 0).val ∧ (i 0).val < (i 0).val / 512 * 512 + 512; omega
  | ⟨1, _⟩ =>
    show win0_17.index (pointOf i) 1 * 512 ≤ (i 1).val ∧ (i 1).val < win0_17.index (pointOf i) 1 * 512 + 512
    rw [e1]; omega

/-- Entry `x` of point `t`'s block of either result array is entry (`512·t + x 0`, `x 1`) of the array. -/
theorem emb16 (t : Fin cfg0.N) (x : S512x512.Idx) :
    ((cfg0.win 16).blk t).view.emb x = (ix2 (rowOf t (x 0)) (x 1) : S16384x512.Idx) := by
  obtain ⟨-, -, -, -, -, -, -, -, e0, e1, -⟩ := idx_rows t
  funext a
  apply Fin.ext
  match a with
  | ⟨0, _⟩ => show win0_16.index t 0 * 512 + 1 * (x 0).val = 512 * t.val + (x 0).val; rw [e0]; omega
  | ⟨1, _⟩ => show win0_16.index t 1 * 512 + 1 * (x 1).val = (x 1).val; rw [e1]; omega

theorem emb17 (t : Fin cfg0.N) (x : S512x512.Idx) :
    ((cfg0.win 17).blk t).view.emb x = (ix2 (rowOf t (x 0)) (x 1) : S16384x512.Idx) := by
  obtain ⟨-, -, -, -, -, -, -, -, -, -, e0, e1⟩ := idx_rows t
  funext a
  apply Fin.ext
  match a with
  | ⟨0, _⟩ => show win0_17.index t 0 * 512 + 1 * (x 0).val = 512 * t.val + (x 0).val; rw [e0]; omega
  | ⟨1, _⟩ => show win0_17.index t 1 * 512 + 1 * (x 1).val = (x 1).val; rw [e1]; omega

end Cert.KernelBlocks

end
-- ==== Proof.BlocksWeights.lean ====
/- Each weight window's staged block read entry by entry as the argument array it came from: a bias or layer-norm vector is
   staged as it is; a weight matrix is staged as the host left it, transposed (and narrowed to bf16, which changes no value
   here), so entry (k, j) of the block is entry (j, k) of the argument. -/
import proofs.«165796_j67980742361453_1_alg».proof.Proof.Blocks

noncomputable section

open Idealize.ShloMosaic Idealize.ShloMosaic.TcCoe Idealize.SL.Sem
open Idealize.ShloMosaic.Pipeline (Dat)

namespace Cert.KernelBlocks

open Cert.KernelIdeal Cert.KernelIdeal.Gen Cert.KernelIdeal.Value Idealize.ShloMosaic.ValueIdx

variable (m : (ℓ : Loc nD τ sig) → Buf (Elt Ideal) ℓ)

theorem V_v3 (c : Dev nD) : (V m c main_v3 : FVec Ideal S512x1536 .bf16)
    = truncf (F := Ideal) .bf16 (transpose S512x1536 [1, 0] (m ((c : Thread nD τ).loc main_arg6)) transposes_S1536x512_S512x1536_1_0) bitsLt_bf16_f32 := by
  dsimp only [Gen.V, Gen.hostOps0]; after_results

/-- The staged input-side cell weights: entry (k, j) is entry (j, k) of the argument. -/
theorem blk6 (c : Dev nD) (t : Fin cfg0.N) (k : Fin 512) (j : Fin 1536) :
    (iblk m c 6 t : Vec Ideal S512x1536 .bf16) (ix2 k j)
      = (m ((c : Thread nD τ).loc main_arg6) : S1536x512.Idx → EReal) (ix2 j k) := by
  obtain ⟨-, -, -, e0, e1, -⟩ := idx_weights t
  unfold iblk
  rw [View.read_apply]
  show V m c main_v3 _ = m (c.tc.loc main_arg6) _
  rw [V_v3]
  show transpose S512x1536 [1, 0] (m (c.tc.loc main_arg6)) transposes_S1536x512_S512x1536_1_0 (((cfg0.win 6).blk t).view.emb (ix2 k j)) = _
  refine (transpose_apply [1, 0] _ transposes_S1536x512_S512x1536_1_0 _ (ix2 j k) (fun b => ?_))
  match b with
  | ⟨0, _⟩ => show k.val = win0_6.index t 0 * 512 + 1 * k.val; rw [e0]; omega
  | ⟨1, _⟩ => show j.val = win0_6.index t 1 * 1536 + 1 * j.val; rw [e1]; omega

/-- The input-side cell bias. -/
theorem blk7 (c : Dev nD) (t : Fin cfg0.N) (j : Fin 1536) :
    (iblk m c 7 t : Vec Ideal S1536 .f32) (ix1 j) = (m ((c : Thread nD τ).loc main_arg7) : S1536.Idx → EReal) (ix1 j) := by
  obtain ⟨-, -, -, -, -, e0, -⟩ := idx_weights t
  unfold iblk
  rw [View.read_apply]
  show V m c main_arg7 _ = m (c.tc.loc main_arg7) _
  rw [V_main_arg7]
  congr 1
  funext a
  apply Fin.ext
  match a with
  | ⟨0, _⟩ => show win0_7.index t 0 * 1536 + 1 * j.val = j.val; rw [e0]; omega

theorem V_v5 (c : Dev nD) : (V m c main_v5 : FVec Ideal S512x1536 .bf16)
    = truncf (F := Ideal) .bf16 (transpose S512x1536 [1, 0] (m ((c : Thread nD τ).loc main_arg8)) transposes_S1536x512_S512x1536_1_0) bitsLt_bf16_f32 := by
  dsimp only [Gen.V, Gen.hostOps0]; after_results

/-- The staged state-side cell weights: entry (k, j) is entry (j, k) of the argument. -/
theorem blk8 (c : Dev nD) (t : Fin cfg0.N) (k : Fin 512) (j : Fin 1536) :
    (iblk m c 8 t : Vec Ideal S512x1536 .bf16) (ix2 k j)
      = (m ((c : Thread nD τ).loc main_arg8) : S1536x512.Idx → EReal) (ix2 j k) := by
  obtain ⟨-, -, -, -, -, -, e0, e1, -⟩ := idx_weights t
  unfold iblk
  rw [View.read_apply]
  show V m c main_v5 _ = m (c.tc.loc main_arg8) _
  rw [V_v5]
  show transpose S512x1536 [1, 0] (m (c.tc.loc main_arg8)) transposes_S1536x512_S512x1536_1_0 (((cfg0.win 8).blk t).view.emb (ix2 k j)) = _
  refine (transpose_apply [1, 0] _ transposes_S1536x512_S512x1536_1_0 _ (ix2 j k) (fun b => ?_))
  match b with
  | ⟨0, _⟩ => show k.val = win0_8.index t 0 * 512 + 1 * k.val; rw [e0]; omega
  | ⟨1, _⟩ => show j.val = win0_8.index t 1 * 1536 + 1 * j.val; rw [e1]; omega

/-- The state-side cell bias. -/
theorem blk9 (c : Dev nD) (t : Fin cfg0.N) (j : Fin 1536) :
    (iblk m c 9 t : Vec Ideal S1536 .f32) (ix1 j) = (m ((c : Thread nD τ).loc main_arg9) : S1536.Idx → EReal) (ix1 j) := by
  obtain ⟨-, -, -, -, -, -, -, -, e0, -⟩ := idx_weights t
  unfold iblk
  rw [View.read_apply]
  show V m c main_arg9 _ = m (c.tc.loc main_arg9) _
  rw [V_main_arg9]
  congr 1
  funext a
  apply Fin.ext
  match a with
  | ⟨0, _⟩ => show win0_9.index t 0 * 1536 + 1 * j.val = j.val; rw [e0]; omega

/-- The layer norm's scale. -/
theorem blk10 (c : Dev nD) (t : Fin cfg0.N) (j : Fin 512) :
    (iblk m c 10 t : Vec Ideal S512 .f32) (ix1 j) = (m ((c : Thread nD τ).loc main_arg10) : S512.Idx → EReal) (ix1 j) := by
  obtain ⟨-, -, -, -, -, -, -, -, -, e0, -⟩ := idx_weights t
  unfold iblk
  rw [View.read_apply]
  show V m c main_arg10 _ = m (c.tc.loc main_arg10) _
  rw [V_main_arg10]
  congr 1
  funext a
  apply Fin.ext
  match a with
  | ⟨0, _⟩ => show win0_10.index t 0 * 512 + 1 * j.val = j.val; rw [e0]; omega

/-- The layer norm's shift. -/
theorem blk11 (c : Dev nD) (t : Fin cfg0.N) (j : Fin 512) :
    (iblk m c 11 t : Vec Ideal S512 .f32) (ix1 j) = (m ((c : Thread nD τ).loc main_arg11) : S512.Idx → EReal) (ix1 j) := by
  obtain ⟨-, -, -, -, -, -, -, -, -, -, e0, -⟩ := idx_weights t
  unfold iblk
  rw [View.read_apply]
  show V m c main_arg11 _ = m (c.tc.loc main_arg11) _
  rw [V_main_arg11]
  congr 1
  funext a
  apply Fin.ext
  match a with
  | ⟨0, _⟩ => show win0_11.index t 0 * 512 + 1 * j.val = j.val; rw [e0]; omega

theorem V_v7 (c : Dev nD) : (V m c main_v7 : FVec Ideal S512x128 .bf16)
    = truncf (F := Ideal) .bf16 (transpose S512x128 [1, 0] (m ((c : Thread nD τ).loc main_arg12)) transposes_S128x512_S512x128_1_0) bitsLt_bf16_f32 := by
  dsimp only [Gen.V, Gen.hostOps0]; after_results

/-- The staged first gate layer: entry (k, j) is entry (j, k) of the argument. -/
theorem blk12 (c : Dev nD) (t : Fin cfg0.N) (k : Fin 512) (j : Fin 128) :
    (iblk m c 12 t : Vec Ideal S512x128 .bf16) (ix2 k j)
      = (m ((c : Thread nD τ).loc main_arg12) : S128x512.Idx → EReal) (ix2 j k) := by
  obtain ⟨-, -, -, -, -, -, -, -, -, -, -, e0, e1, -⟩ := idx_weights t
  unfold iblk
  rw [View.read_apply]
  show V m c main_v7 _ = m (c.tc.loc main_arg12) _
  rw [V_v7]
  show transpose S512x128 [1, 0] (m (c.tc.loc main_arg12)) transposes_S128x512_S512x128_1_0 (((cfg0.win 12).blk t).view.emb (ix2 k j)) = _
  refine (transpose_apply [1, 0] _ transposes_S128x512_S512x128_1_0 _ (ix2 j k) (fun b => ?_))
  match b with
  | ⟨0, _⟩ => show k.val = win0_12.index t 0 * 512 + 1 * k.val; rw [e0]; omega
  | ⟨1, _⟩ => show j.val = win0_12.index t 1 * 128 + 1 * j.val; rw [e1]; omega

/-- The first gate layer's bias. -/
theorem blk13 (c : Dev nD) (t : Fin cfg0.N) (j : Fin 128) :
    (iblk m c 13 t : Vec Ideal S128 .f32) (ix1 j) = (m ((c : Thread nD τ).loc main_arg13) : S128.Idx → EReal) (ix1 j) := by
  obtain ⟨-, -, -, -, -, -, -, -, -, -, -, -, -, e0, -⟩ := idx_weights t
  unfold iblk
  rw [View.read_apply]
  show V m c main_arg13 _ = m (c.tc.loc main_arg13) _
  rw [V_main_arg13]
  congr 1
  funext a
  apply Fin.ext
  match a with
  | ⟨0, _⟩ => show win0_13.index t 0 * 128 + 1 * j.val = j.val; rw [e0]; omega

theorem V_v9 (c : Dev nD) : (V m c main_v9 : FVec Ideal S128x1 .bf16)
    = truncf (F := Ideal) .bf16 (transpose S128x1 [1, 0] (m ((c : Thread nD τ).loc main_arg14)) transposes_S1x128_S128x1_1_0) bitsLt_bf16_f32 := by
  dsimp only [Gen.V, Gen.hostOps0]; after_results

/-- The staged second gate layer: entry (k, j) is entry (j, k) of the argument. -/
theorem blk14 (c : Dev nD) (t : Fin cfg0.N) (k : Fin 128) (j : Fin 1) :
    (iblk m c 14 t : Vec Ideal S128x1 .bf16) (ix2 k j)
      = (m ((c : Thread nD τ).loc main_arg14) : S1x128.Idx → EReal) (ix2 j k) := by
  obtain ⟨-, -, -, -, -, -, -, -, -, -, -, -, -, -, e0, e1, -⟩ := idx_weights t
  unfold iblk
  rw [View.read_apply]
  show V m c main_v9 _ = m (c.tc.loc main_arg14) _
  rw [V_v9]
  show transpose S128x1 [1, 0] (m (c.tc.loc main_arg14)) transposes_S1x128_S128x1_1_0 (((cfg0.win 14).blk t).view.emb (ix2 k j)) = _
  refine (transpose_apply [1, 0] _ transposes_S1x128_S128x1_1_0 _ (ix2 j k) (fun b => ?_))
  match b with
  | ⟨0, _⟩ => show k.val = win0_14.index t 0 * 128 + 1 * k.val; rw [e0]; omega
  | ⟨1, _⟩ => show j.val = win0_14.index t 1 * 1 + 1 * j.val; rw [e1]; omega

/-- The second gate layer's bias. -/
theorem blk15 (c : Dev nD) (t : Fin cfg0.N) (j : Fin 1) :
    (iblk m c 15 t : Vec Ideal S1 .f32) (ix1 j) = (m ((c : Thread nD τ).loc main_arg15) : S1.Idx → EReal) (ix1 j) := by
  obtain ⟨-, -, -, -, -, -, -, -, -, -, -, -, -, -, -, -, e0⟩ := idx_weights t
  unfold iblk
  rw [View.read_apply]
  show V m c main_arg15 _ = m (c.tc.loc main_arg15) _
  rw [V_main_arg15]
  congr 1
  funext a
  apply Fin.ext
  match a with
  | ⟨0, _⟩ => show win0_15.index t 0 * 1 + 1 * j.val = j.val; rw [e0]; omega

end Cert.KernelBlocks

end
-- ==== Proof.KernelRowsDots.lean ====
/-
  The kernel's four matrix products read at an entry. Each contracts the left operand's columns with the right
  operand's rows into a zero accumulator, so entry (p, q) of the product is the sum over k of left (p, k) times
  right (k, q). For each product: the operand indices on their two axes, then the product at (p, q).
-/
import proofs.«165796_j67980742361453_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelRows

open Cert.KernelIdeal Cert.KernelIdeal.Gen Idealize.ShloMosaic Idealize.ShloMosaic.ValueIdx

/-! ## [512, 1053] times [1053, 512] -/

theorem lhs_proj_0 (i : S512x512.Idx) (c : dot_S512x1053_S1053x512_S512x512_1_0_0_1_n_n.contr.Idx) :
    (dot_S512x1053_S1053x512_S512x512_1_0_0_1_n_n.lhsIdx i c 0).val = (i 0).val := by
  unfold DotDims.lhsIdx
  rw [dif_neg (show ¬(0 : Fin S512x1053.rank) ∈ dot_S512x1053_S1053x512_S512x512_1_0_0_1_n_n.lhsBatch by decide), dif_pos (show (0 : Fin S512x1053.rank) ∈ dot_S512x1053_S1053x512_S512x512_1_0_0_1_n_n.lhsNonContracting by decide)]
  rfl
theorem lhs_proj_1 (i : S512x512.Idx) (c : dot_S512x1053_S1053x512_S512x512_1_0_0_1_n_n.contr.Idx) :
    (dot_S512x1053_S1053x512_S512x512_1_0_0_1_n_n.lhsIdx i c 1).val = (c ⟨0, by decide⟩).val :=
  dot_S512x1053_S1053x512_S512x512_1_0_0_1_n_n.lhsIdx_val_of_single rfl i c
theorem rhs_proj_0 (i : S512x512.Idx) (c : dot_S512x1053_S1053x512_S512x512_1_0_0_1_n_n.contr.Idx) :
    (dot_S512x1053_S1053x512_S512x512_1_0_0_1_n_n.rhsIdx i c 0).val = (c ⟨0, by decide⟩).val :=
  dot_S512x1053_S1053x512_S512x512_1_0_0_1_n_n.rhsIdx_val_of_single rfl i c
theorem rhs_proj_1 (i : S512x512.Idx) (c : dot_S512x1053_S1053x512_S512x512_1_0_0_1_n_n.contr.Idx) :
    (dot_S512x1053_S1053x512_S512x512_1_0_0_1_n_n.rhsIdx i c 1).val = (i 1).val := by
  unfold DotDims.rhsIdx
  rw [dif_neg (show ¬(1 : Fin S1053x512.rank) ∈ dot_S512x1053_S1053x512_S512x512_1_0_0_1_n_n.rhsBatch by decide), dif_pos (show (1 : Fin S1053x512.rank) ∈ dot_S512x1053_S1053x512_S512x512_1_0_0_1_n_n.rhsNonContracting by decide)]
  rfl

/-- Entry (p, q) of the [512, 1053] by [1053, 512] product. -/
theorem matmul_proj_apply (A : FVec Ideal S512x1053 .bf16) (B : FVec Ideal S1053x512 .bf16) (p q : Fin 512) :
    matmul dot_S512x1053_S1053x512_S512x512_1_0_0_1_n_n none A B (constant (F := Ideal) S512x512 .f32 0x00000000#32) (ix2 p q)
      = ∑ k : Fin 1053, A (ix2 p k) * B (ix2 k q) := by
  refine (Ideal.matmul_constant_zero_apply _ _ A B (ix2 p q)).trans ?_
  rw [← Equiv.sum_comp (contrEquiv1 dot_S512x1053_S1053x512_S512x512_1_0_0_1_n_n 1053 rfl rfl).symm]
  refine Finset.sum_congr rfl fun k _ => ?_
  have hk := contrEquiv1_symm_val dot_S512x1053_S1053x512_S512x512_1_0_0_1_n_n 1053 rfl rfl k
  have el : dot_S512x1053_S1053x512_S512x512_1_0_0_1_n_n.lhsIdx (ix2 p q) ((contrEquiv1 dot_S512x1053_S1053x512_S512x512_1_0_0_1_n_n 1053 rfl rfl).symm k) = ix2 p k := funext fun a => Fin.ext (by
    match a with
    | ⟨0, _⟩ => exact lhs_proj_0 _ _
    | ⟨1, _⟩ => exact (lhs_proj_1 _ _).trans hk)
  have er : dot_S512x1053_S1053x512_S512x512_1_0_0_1_n_n.rhsIdx (ix2 p q) ((contrEquiv1 dot_S512x1053_S1053x512_S512x512_1_0_0_1_n_n 1053 rfl rfl).symm k) = ix2 k q := funext fun a => Fin.ext (by
    match a with
    | ⟨0, _⟩ => exact (rhs_proj_0 _ _).trans hk
    | ⟨1, _⟩ => exact rhs_proj_1 _ _)
  rw [el, er]

/-! ## [512, 512] times [512, 128] -/

theorem lhs_hid_0 (i : S512x128.Idx) (c : dot_S512x512_S512x128_S512x128_1_0_0_1_n_n.contr.Idx) :
    (dot_S512x512_S512x128_S512x128_1_0_0_1_n_n.lhsIdx i c 0).val = (i 0).val := by
  unfold DotDims.lhsIdx
  rw [dif_neg (show ¬(0 : Fin S512x512.rank) ∈ dot_S512x512_S512x128_S512x128_1_0_0_1_n_n.lhsBatch by decide), dif_pos (show (0 : Fin S512x512.rank) ∈ dot_S512x512_S512x128_S512x128_1_0_0_1_n_n.lhsNonContracting by decide)]
  rfl
theorem lhs_hid_1 (i : S512x128.Idx) (c : dot_S512x512_S512x128_S512x128_1_0_0_1_n_n.contr.Idx) :
    (dot_S512x512_S512x128_S512x128_1_0_0_1_n_n.lhsIdx i c 1).val = (c ⟨0, by decide⟩).val :=
  dot_S512x512_S512x128_S512x128_1_0_0_1_n_n.lhsIdx_val_of_single rfl i c
theorem rhs_hid_0 (i : S512x128.Idx) (c : dot_S512x512_S512x128_S512x128_1_0_0_1_n_n.contr.Idx) :
    (dot_S512x512_S512x128_S512x128_1_0_0_1_n_n.rhsIdx i c 0).val = (c ⟨0, by decide⟩).val :=
  dot_S512x512_S512x128_S512x128_1_0_0_1_n_n.rhsIdx_val_of_single rfl i c
theorem rhs_hid_1 (i : S512x128.Idx) (c : dot_S512x512_S512x128_S512x128_1_0_0_1_n_n.contr.Idx) :
    (dot_S512x512_S512x128_S512x128_1_0_0_1_n_n.rhsIdx i c 1).val = (i 1).val := by
  unfold DotDims.rhsIdx
  rw [dif_neg (show ¬(1 : Fin S512x128.rank) ∈ dot_S512x512_S512x128_S512x128_1_0_0_1_n_n.rhsBatch by decide), dif_pos (show (1 : Fin S512x128.rank) ∈ dot_S512x512_S512x128_S512x128_1_0_0_1_n_n.rhsNonContracting by decide)]
  rfl

/-- Entry (p, q) of the [512, 512] by [512, 128] product. -/
theorem matmul_hid_apply (A : FVec Ideal S512x512 .bf16) (B : FVec Ideal S512x128 .bf16) (p : Fin 512) (q : Fin 128) :
    matmul dot_S512x512_S512x128_S512x128_1_0_0_1_n_n none A B (constant (F := Ideal) S512x128 .f32 0x00000000#32) (ix2 p q)
      = ∑ k : Fin 512, A (ix2 p k) * B (ix2 k q) := by
  refine (Ideal.matmul_constant_zero_apply _ _ A B (ix2 p q)).trans ?_
  rw [← Equiv.sum_comp (contrEquiv1 dot_S512x512_S512x128_S512x128_1_0_0_1_n_n 512 rfl rfl).symm]
  refine Finset.sum_congr rfl fun k _ => ?_
  have hk := contrEquiv1_symm_val dot_S512x512_S512x128_S512x128_1_0_0_1_n_n 512 rfl rfl k
  have el : dot_S512x512_S512x128_S512x128_1_0_0_1_n_n.lhsIdx (ix2 p q) ((contrEquiv1 dot_S512x512_S512x128_S512x128_1_0_0_1_n_n 512 rfl rfl).symm k) = ix2 p k := funext fun a => Fin.ext (by
    match a with
    | ⟨0, _⟩ => exact lhs_hid_0 _ _
    | ⟨1, _⟩ => exact (lhs_hid_1 _ _).trans hk)
  have er : dot_S512x512_S512x128_S512x128_1_0_0_1_n_n.rhsIdx (ix2 p q) ((contrEquiv1 dot_S512x512_S512x128_S512x128_1_0_0_1_n_n 512 rfl rfl).symm k) = ix2 k q := funext fun a => Fin.ext (by
    match a with
    | ⟨0, _⟩ => exact (rhs_hid_0 _ _).trans hk
    | ⟨1, _⟩ => exact rhs_hid_1 _ _)
  rw [el, er]

/-! ## [512, 128] times [128, 1] -/

theorem lhs_gate_0 (i : S512x1.Idx) (c : dot_S512x128_S128x1_S512x1_1_0_0_1_n_n.contr.Idx) :
    (dot_S512x128_S128x1_S512x1_1_0_0_1_n_n.lhsIdx i c 0).val = (i 0).val := by
  unfold DotDims.lhsIdx
  rw [dif_neg (show ¬(0 : Fin S512x128.rank) ∈ dot_S512x128_S128x1_S512x1_1_0_0_1_n_n.lhsBatch by decide), dif_pos (show (0 : Fin S512x128.rank) ∈ dot_S512x128_S128x1_S512x1_1_0_0_1_n_n.lhsNonContracting by decide)]
  rfl
theorem lhs_gate_1 (i : S512x1.Idx) (c : dot_S512x128_S128x1_S512x1_1_0_0_1_n_n.contr.Idx) :
    (dot_S512x128_S128x1_S512x1_1_0_0_1_n_n.lhsIdx i c 1).val = (c ⟨0, by decide⟩).val :=
  dot_S512x128_S128x1_S512x1_1_0_0_1_n_n.lhsIdx_val_of_single rfl i c
theorem rhs_gate_0 (i : S512x1.Idx) (c : dot_S512x128_S128x1_S512x1_1_0_0_1_n_n.contr.Idx) :
    (dot_S512x128_S128x1_S512x1_1_0_0_1_n_n.rhsIdx i c 0).val = (c ⟨0, by decide⟩).val :=
  dot_S512x128_S128x1_S512x1_1_0_0_1_n_n.rhsIdx_val_of_single rfl i c
theorem rhs_gate_1 (i : S512x1.Idx) (c : dot_S512x128_S128x1_S512x1_1_0_0_1_n_n.contr.Idx) :
    (dot_S512x128_S128x1_S512x1_1_0_0_1_n_n.rhsIdx i c 1).val = (i 1).val := by
  unfold DotDims.rhsIdx
  rw [dif_neg (show ¬(1 : Fin S128x1.rank) ∈ dot_S512x128_S128x1_S512x1_1_0_0_1_n_n.rhsBatch by decide), dif_pos (show (1 : Fin S128x1.rank) ∈ dot_S512x128_S128x1_S512x1_1_0_0_1_n_n.rhsNonContracting by decide)]
  rfl

/-- Entry (p, q) of the [512, 128] by [128, 1] product. -/
theorem matmul_gate_apply (A : FVec Ideal S512x128 .bf16) (B : FVec Ideal S128x1 .bf16) (p : Fin 512) (q : Fin 1) :
    matmul dot_S512x128_S128x1_S512x1_1_0_0_1_n_n none A B (constant (F := Ideal) S512x1 .f32 0x00000000#32) (ix2 p q)
      = ∑ k : Fin 128, A (ix2 p k) * B (ix2 k q) := by
  refine (Ideal.matmul_constant_zero_apply _ _ A B (ix2 p q)).trans ?_
  rw [← Equiv.sum_comp (contrEquiv1 dot_S512x128_S128x1_S512x1_1_0_0_1_n_n 128 rfl rfl).symm]
  refine Finset.sum_congr rfl fun k _ => ?_
  have hk := contrEquiv1_symm_val dot_S512x128_S128x1_S512x1_1_0_0_1_n_n 128 rfl rfl k
  have el : dot_S512x128_S128x1_S512x1_1_0_0_1_n_n.lhsIdx (ix2 p q) ((contrEquiv1 dot_S512x128_S128x1_S512x1_1_0_0_1_n_n 128 rfl rfl).symm k) = ix2 p k := funext fun a => Fin.ext (by
    match a with
    | ⟨0, _⟩ => exact lhs_gate_0 _ _
    | ⟨1, _⟩ => exact (lhs_gate_1 _ _).trans hk)
  have er : dot_S512x128_S128x1_S512x1_1_0_0_1_n_n.rhsIdx (ix2 p q) ((contrEquiv1 dot_S512x128_S128x1_S512x1_1_0_0_1_n_n 128 rfl rfl).symm k) = ix2 k q := funext fun a => Fin.ext (by
    match a with
    | ⟨0, _⟩ => exact (rhs_gate_0 _ _).trans hk
    | ⟨1, _⟩ => exact rhs_gate_1 _ _)
  rw [el, er]

/-! ## [512, 512] times [512, 1536] -/

theorem lhs_cell_0 (i : S512x1536.Idx) (c : dot_S512x512_S512x1536_S512x1536_1_0_0_1_n_n.contr.Idx) :
    (dot_S512x512_S512x1536_S512x1536_1_0_0_1_n_n.lhsIdx i c 0).val = (i 0).val := by
  unfold DotDims.lhsIdx
  rw [dif_neg (show ¬(0 : Fin S512x512.rank) ∈ dot_S512x512_S512x1536_S512x1536_1_0_0_1_n_n.lhsBatch by decide), dif_pos (show (0 : Fin S512x512.rank) ∈ dot_S512x512_S512x1536_S512x1536_1_0_0_1_n_n.lhsNonContracting by decide)]
  rfl
theorem lhs_cell_1 (i : S512x1536.Idx) (c : dot_S512x512_S512x1536_S512x1536_1_0_0_1_n_n.contr.Idx) :
    (dot_S512x512_S512x1536_S512x1536_1_0_0_1_n_n.lhsIdx i c 1).val = (c ⟨0, by decide⟩).val :=
  dot_S512x512_S512x1536_S512x1536_1_0_0_1_n_n.lhsIdx_val_of_single rfl i c
theorem rhs_cell_0 (i : S512x1536.Idx) (c : dot_S512x512_S512x1536_S512x1536_1_0_0_1_n_n.contr.Idx) :
    (dot_S512x512_S512x1536_S512x1536_1_0_0_1_n_n.rhsIdx i c 0).val = (c ⟨0, by decide⟩).val :=
  dot_S512x512_S512x1536_S512x1536_1_0_0_1_n_n.rhsIdx_val_of_single rfl i c
theorem rhs_cell_1 (i : S512x1536.Idx) (c : dot_S512x512_S512x1536_S512x1536_1_0_0_1_n_n.contr.Idx) :
    (dot_S512x512_S512x1536_S512x1536_1_0_0_1_n_n.rhsIdx i c 1).val = (i 1).val := by
  unfold DotDims.rhsIdx
  rw [dif_neg (show ¬(1 : Fin S512x1536.rank) ∈ dot_S512x512_S512x1536_S512x1536_1_0_0_1_n_n.rhsBatch by decide), dif_pos (show (1 : Fin S512x1536.rank) ∈ dot_S512x512_S512x1536_S512x1536_1_0_0_1_n_n.rhsNonContracting by decide)]
  rfl

/-- Entry (p, c) of the [512, 512] by [512, 1536] product. -/
theorem matmul_cell_apply (A : FVec Ideal S512x512 .bf16) (B : FVec Ideal S512x1536 .bf16) (p : Fin 512) (q : Fin 1536) :
    matmul dot_S512x512_S512x1536_S512x1536_1_0_0_1_n_n none A B (constant (F := Ideal) S512x1536 .f32 0x00000000#32) (ix2 p q)
      = ∑ k : Fin 512, A (ix2 p k) * B (ix2 k q) := by
  refine (Ideal.matmul_constant_zero_apply _ _ A B (ix2 p q)).trans ?_
  rw [← Equiv.sum_comp (contrEquiv1 dot_S512x512_S512x1536_S512x1536_1_0_0_1_n_n 512 rfl rfl).symm]
  refine Finset.sum_congr rfl fun k _ => ?_
  have hk := contrEquiv1_symm_val dot_S512x512_S512x1536_S512x1536_1_0_0_1_n_n 512 rfl rfl k
  have el : dot_S512x512_S512x1536_S512x1536_1_0_0_1_n_n.lhsIdx (ix2 p q) ((contrEquiv1 dot_S512x512_S512x1536_S512x1536_1_0_0_1_n_n 512 rfl rfl).symm k) = ix2 p k := funext fun a => Fin.ext (by
    match a with
    | ⟨0, _⟩ => exact lhs_cell_0 _ _
    | ⟨1, _⟩ => exact (lhs_cell_1 _ _).trans hk)
  have er : dot_S512x512_S512x1536_S512x1536_1_0_0_1_n_n.rhsIdx (ix2 p q) ((contrEquiv1 dot_S512x512_S512x1536_S512x1536_1_0_0_1_n_n 512 rfl rfl).symm k) = ix2 k q := funext fun a => Fin.ext (by
    match a with
    | ⟨0, _⟩ => exact (rhs_cell_0 _ _).trans hk
    | ⟨1, _⟩ => exact rhs_cell_1 _ _)
  rw [el, er]

end Cert.KernelRows

end
-- ==== Proof.KernelRowsLayout.lean ====
/-
  The kernel's layout operations read at an entry: a vector laid as one row and repeated down the rows, a column
  repeated across the columns, a vector stood up as a column, a block of columns cut out of a wider matrix, and the
  four input blocks laid side by side.
-/
import proofs.«165796_j67980742361453_1_alg».proof.Proof.RowSpec
import proofs.«165796_j67980742361453_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.KernelRows

open Cert.KernelIdeal Cert.KernelIdeal.Gen Cert.GameRow Idealize.ShloMosaic Idealize.ShloMosaic.ValueIdx

section Generic
variable {α : Type}

/-- A vector laid as one row and repeated down the rows reads, at (p, q), its entry q. -/
theorem rowBcast_apply {a b : ℕ} (v : (⟨1, ![b]⟩ : Shape).Idx → α) (h1 : (⟨1, ![b]⟩ : Shape).ShapeCasts ⟨2, ![1, b]⟩)
    (h2 : (⟨2, ![1, b]⟩ : Shape).Broadcasts ⟨2, ![a, b]⟩) (p : Fin a) (q : Fin b) :
    broadcastTo ⟨2, ![a, b]⟩ (shapeCast ⟨2, ![1, b]⟩ v h1) h2 (ix2 p q) = v (ix1 q) :=
  (broadcastTo_1b_ab_apply _ h2 p q).trans (shapeCast_a_1a_apply v h1 0 q)

/-- A column repeated across the columns reads, at (p, q), the column's entry p. -/
theorem colBcast_apply {a b : ℕ} (w : (⟨2, ![a, 1]⟩ : Shape).Idx → α) (h : (⟨2, ![a, 1]⟩ : Shape).Broadcasts ⟨2, ![a, b]⟩)
    (p : Fin a) (q : Fin b) : broadcastTo ⟨2, ![a, b]⟩ w h (ix2 p q) = w (ix2 p (0 : Fin 1)) := by
  refine broadcastTo_apply w h (ix2 p q) (ix2 p (0 : Fin 1)) fun ax => ?_
  match ax with
  | ⟨0, _⟩ =>
    show p.val = if a = 1 then 0 else p.val
    split
    · have := p.isLt; omega
    · rfl
  | ⟨1, _⟩ => rfl

/-- A vector stood up as a column reads, at (i, 0), its entry i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Generic

/-! ## The three thirds of a [512, 1536] matrix -/

section Thirds
variable {α : Type} (X : S512x1536.Idx → α) (p q : Fin 512)

theorem third0_apply : extractStridedSlice S512x512 ![0, 0] X slices_S512x1536_o0_0_S512x512 (ix2 p q) = X (ix2 p (third0 q)) :=
  slice2_axis1_apply 0 X _ p q (third0 q) (Nat.zero_add _).symm
theorem third1_apply : extractStridedSlice S512x512 ![0, 512] X slices_S512x1536_o0_512_S512x512 (ix2 p q) = X (ix2 p (third1 q)) :=
  slice2_axis1_apply 512 X _ p q (third1 q) rfl
theorem third2_apply : extractStridedSlice S512x512 ![0, 1024] X slices_S512x1536_o0_1024_S512x512 (ix2 p q) = X (ix2 p (third2 q)) :=
  slice2_axis1_apply 1024 X _ p q (third2 q) rfl

end Thirds

/-! ## The four input blocks side by side -/

section Joined
variable {α : Type} (x0 x1 : S512x512.Idx → α) (x2 : S512x28.Idx → α) (x3 : S512x1.Idx → α)

/-- Entry (p, k) of the four blocks laid side by side is entry k of row p's four pieces joined. -/
theorem concat_apply (p : Fin 512) (k : Fin 1053) :
    concatenate S512x1053 1 [⟨S512x512, x0⟩, ⟨S512x512, x1⟩, ⟨S512x28, x2⟩, ⟨S512x1, x3⟩]
        concatenates_S512x512_S512x512_S512x28_S512x1_S512x1053_d1 (ix2 p k)
      = if h : k.val < 512 then x0 (ix2 p ⟨k.val, h⟩)
        else if h2 : k.val < 1024 then x1 (ix2 p ⟨k.val - 512, by omega⟩)
        else if h3 : k.val < 1052 then x2 (ix2 p ⟨k.val - 1024, by omega⟩)
        else x3 (ix2 p (0 : Fin 1)) := by
  have hk := k.isLt
  by_cases h : k.val < 512
  · rw [dif_pos h]
    refine concatenate_apply_piece 1 _ _ (ix2 p k) 0 (by show (0 : ℕ) < 4; omega) S512x512 x0 rfl rfl 0 rfl (ix2 p ⟨k.val, h⟩) (fun b hb => ?_) ?_
    · match b with
      | ⟨0, _⟩ => rfl
      | ⟨1, _⟩ => exact absurd rfl hb
    · exact Nat.zero_add _
  · rw [dif_neg h]
    by_cases h2 : k.val < 1024
    · rw [dif_pos h2]
      refine concatenate_apply_piece 1 _ _ (ix2 p k) 1 (by show (1 : ℕ) < 4; omega) S512x512 x1 rfl rfl 512 rfl (ix2 p ⟨k.val - 512, by omega⟩) (fun b hb => ?_) ?_
      · match b with
        | ⟨0, _⟩ => rfl
        | ⟨1, _⟩ => exact absurd rfl hb
      · show 512 + (k.val - 512) = k.val
        omega
    · rw [dif_neg h2]
      by_cases h3 : k.val < 1052
      · rw [dif_pos h3]
        refine concatenate_apply_piece 1 _ _ (ix2 p k) 2 (by show (2 : ℕ) < 4; omega) S512x28 x2 rfl rfl 1024 rfl (ix2 p ⟨k.val - 1024, by omega⟩) (fun b hb => ?_) ?_
        · match b with
          | ⟨0, _⟩ => rfl
          | ⟨1, _⟩ => exact absurd rfl hb
        · show 1024 + (k.val - 1024) = k.val
          omega
      · rw [dif_neg h3]
        refine concatenate_apply_piece 1 _ _ (ix2 p k) 3 (by show (3 : ℕ) < 4; omega) S512x1 x3 rfl rfl 1052 rfl (ix2 p (0 : Fin 1)) (fun b hb => ?_) ?_
        · match b with
          | ⟨0, _⟩ => rfl
          | ⟨1, _⟩ => exact absurd rfl hb
        · show 1052 + 0 = k.val
          omega

end Joined

end Cert.KernelRows

end
-- ==== Proof.KernelRows.lean ====
/-
  The kernel's stored blocks, row by row. Entry (p, q) of each block the kernel computes is the row function of
  RowSpec at row p of the four input blocks and the staged weights: the projection with its ReLU, the gate, the cell's
  two linear maps and its three gates, the blend, the row's mean and variance, and the layer norm. A staged weight
  matrix is the transpose of the layer's; the second gate layer's weights are a one-column block and its bias a
  one-entry vector.
-/
import proofs.«165796_j67980742361453_1_alg».proof.Proof.RowSpec
import proofs.«165796_j67980742361453_1_alg».proof.Proof.Gen.KernelIdeal.Skeleton
import proofs.«165796_j67980742361453_1_alg».proof.Proof.KernelRowsDots
import proofs.«165796_j67980742361453_1_alg».proof.Proof.KernelRowsLayout
import Idealize.ShloMosaic.Lib.ValueIdx
import Idealize.ShloMosaic.Lib.Pipeline.Value
import Idealize.ShloMosaic.PureOps.Ideal.Laws

noncomputable section

namespace Cert.KernelRows

open Cert.KernelIdeal Cert.KernelIdeal.Gen Cert.GameRow Idealize.ShloMosaic Idealize.ShloMosaic.ValueIdx

variable (x0 x1 : Vec Ideal S512x512 .f32) (x2 : Vec Ideal S512x28 .f32) (x3 : Vec Ideal S512x1 .f32)
  (x4 : Vec Ideal S1053x512 .bf16) (x5 : Vec Ideal S512 .f32) (x6 : Vec Ideal S512x1536 .bf16) (x7 : Vec Ideal S1536 .f32)
  (x8 : Vec Ideal S512x1536 .bf16) (x9 : Vec Ideal S1536 .f32) (x10 x11 : Vec Ideal S512 .f32)
  (x12 : Vec Ideal S512x128 .bf16) (x13 : Vec Ideal S128 .f32) (x14 : Vec Ideal S128x1 .bf16) (x15 : Vec Ideal S1 .f32)

/-- A staged weight matrix is the transpose of the layer's: entry (j, k) of the layer's matrix is entry (k, j) of the block. -/
abbrev matT {a b : Nat} (A : (⟨2, ![a, b]⟩ : Shape).Idx → EReal) (j : Fin b) (k : Fin a) : EReal := A (ix2 k j)

/-- Row `p` of the four input blocks, side by side. -/
abbrev rowIn (p : Fin 512) : Fin 1053 → EReal := joined (mat x0 p) (mat x1 p) (mat x2 p) (mat x3 p 0)

/-! ## The projection -/

/-- Entry (p, k) of the four blocks laid side by side is entry k of row p joined. -/
theorem joined_apply (p : Fin 512) (k : Fin 1053) :
    concatenate S512x1053 1 [⟨S512x512, x0⟩, ⟨S512x512, x1⟩, ⟨S512x28, x2⟩, ⟨S512x1, x3⟩]
        concatenates_S512x512_S512x512_S512x28_S512x1_S512x1053_d1 (ix2 p k) = rowIn x0 x1 x2 x3 p k :=
  concat_apply x0 x1 x2 x3 p k

/-- The projection with its ReLU: the row's 1053 numbers against column q of the staged weights, plus the bias,
    clamped below at zero. -/
theorem ker_projected (p q : Fin 512) :
    k0_pay2 (F := Ideal) x0 x1 x2 x3 x4 x5 (ix2 p q) = projected (matT x4) (vec x5) (rowIn x0 x1 x2 x3 p) q := by
  unfold k0_pay2 projected
  refine congrArg₂ max (congrArg₂ (· + ·) ?_ ?_) rfl
  · refine (matmul_proj_apply _ _ p q).trans (Finset.sum_congr rfl fun k _ => congrArg₂ (· * ·) ?_ ?_)
    · exact joined_apply x0 x1 x2 x3 p k
    · exact congrFun (shapeCast_self x4 _) (ix2 k q)
  · exact rowBcast_apply x5 _ _ p q

/-! ## The gate -/

/-- The projection's cast to the narrower format changes nothing at the ideal values. -/
theorem pay3_apply (p q : Fin 512) :
    k0_pay3 (F := Ideal) x0 x1 x2 x3 x4 x5 (ix2 p q) = projected (matT x4) (vec x5) (rowIn x0 x1 x2 x3 p) q := by
  unfold k0_pay3
  exact ker_projected x0 x1 x2 x3 x4 x5 p q

/-- The gate: the hidden layer (the projection against the staged first-layer weights, plus the bias, clamped below
    at zero), then the one-column second layer, its bias, and the logistic. One number a row. -/
theorem pay4_apply (p : Fin 512) :
    k0_pay4 (F := Ideal) x0 x1 x2 x3 x4 x5 x12 x13 x14 x15 (ix2 p (0 : Fin 1))
      = importance (matT x4) (vec x5) (matT x12) (vec x13) (fun k => x14 (ix2 k 0)) (vec x15 0) (rowIn x0 x1 x2 x3 p) := by
  unfold k0_pay4 importance
  refine congrArg Ideal.logistic (congrArg₂ (· + ·) ?_ ?_)
  · refine (matmul_gate_apply _ _ p 0).trans (Finset.sum_congr rfl fun k _ => congrArg₂ (· * ·) ?_ ?_)
    · unfold GameRow.hidden
      refine congrArg₂ max (congrArg₂ (· + ·) ?_ ?_) rfl
      · refine (matmul_hid_apply _ _ p k).trans (Finset.sum_congr rfl fun j _ => congrArg₂ (· * ·) ?_ ?_)
        · exact pay3_apply x0 x1 x2 x3 x4 x5 p j
        · exact congrFun (shapeCast_self x12 _) (ix2 j k)
      · exact rowBcast_apply x13 _ _ p k
    · exact congrFun (shapeCast_self x14 _) (ix2 k 0)
  · exact rowBcast_apply x15 _ _ p 0

/-! ## The cell -/

/-- The cell's linear map of the projection, as the kernel computes it, at (p, c). -/
theorem gin_apply (p : Fin 512) (c : Fin 1536) :
    addf (matmul dot_S512x512_S512x1536_S512x1536_1_0_0_1_n_n none (k0_pay3 (F := Ideal) x0 x1 x2 x3 x4 x5)
          (shapeCast S512x1536 x6 shapeCasts_S512x1536_S512x1536 : FVec Ideal S512x1536 .bf16) (constant (F := Ideal) S512x1536 .f32 0x00000000#32))
        (broadcastTo S512x1536 (shapeCast S1x1536 x7 shapeCasts_S1536_S1x1536) broadcasts_S1x1536_S512x1536) (ix2 p c)
      = gin (matT x4) (vec x5) (matT x6) (vec x7) (rowIn x0 x1 x2 x3 p) c := by
  unfold gin
  refine congrArg₂ (· + ·) ?_ ?_
  · refine (matmul_cell_apply _ _ p c).trans (Finset.sum_congr rfl fun j _ => congrArg₂ (· * ·) ?_ ?_)
    · exact pay3_apply x0 x1 x2 x3 x4 x5 p j
    · exact congrFun (shapeCast_self x6 _) (ix2 j c)
  · exact rowBcast_apply x7 _ _ p c

/-- The cell's linear map of the team's embedding, at (p, c). -/
theorem ghid_apply (p : Fin 512) (c : Fin 1536) :
    addf (matmul dot_S512x512_S512x1536_S512x1536_1_0_0_1_n_n none (k0_pay5 (F := Ideal) x0)
          (shapeCast S512x1536 x8 shapeCasts_S512x1536_S512x1536 : FVec Ideal S512x1536 .bf16) (constant (F := Ideal) S512x1536 .f32 0x00000000#32))
        (broadcastTo S512x1536 (shapeCast S1x1536 x9 shapeCasts_S1536_S1x1536) broadcasts_S1x1536_S512x1536) (ix2 p c)
      = ghid (matT x8) (vec x9) (mat x0 p) c := by
  unfold ghid
  refine congrArg₂ (· + ·) ?_ ?_
  · refine (matmul_cell_apply _ _ p c).trans (Finset.sum_congr rfl fun j _ => congrArg₂ (· * ·) ?_ ?_)
    · rfl
    · exact congrFun (shapeCast_self x8 _) (ix2 j c)
  · exact rowBcast_apply x9 _ _ p c

section Gates
variable (GI GH : FVec Ideal S512x1536 .f32) (p q : Fin 512)

/-- The reset gate reads the first third of the two linear maps. -/
theorem resetK_apply :
    logistic (addf (extractStridedSlice S512x512 ![0, 0] GI slices_S512x1536_o0_0_S512x512)
        (extractStridedSlice S512x512 ![0, 0] GH slices_S512x1536_o0_0_S512x512)) (ix2 p q)
      = Ideal.logistic (GI (ix2 p (third0 q)) + GH (ix2 p (third0 q))) :=
  congrArg Ideal.logistic (congrArg₂ (· + ·) (third0_apply GI p q) (third0_apply GH p q))

/-- The update gate reads the second third. -/
theorem updateK_apply :
    logistic (addf (extractStridedSlice S512x512 ![0, 512] GI slices_S512x1536_o0_512_S512x512)
        (extractStridedSlice S512x512 ![0, 512] GH slices_S512x1536_o0_512_S512x512)) (ix2 p q)
      = Ideal.logistic (GI (ix2 p (third1 q)) + GH (ix2 p (third1 q))) :=
  congrArg Ideal.logistic (congrArg₂ (· + ·) (third1_apply GI p q) (third1_apply GH p q))

/-- The candidate reads the last third, the reset gate scaling the embedding's part. -/
theorem candK_apply :
    tanh (addf (extractStridedSlice S512x512 ![0, 1024] GI slices_S512x1536_o0_1024_S512x512)
        (mulf (logistic (addf (extractStridedSlice S512x512 ![0, 0] GI slices_S512x1536_o0_0_S512x512)
            (extractStridedSlice S512x512 ![0, 0] GH slices_S512x1536_o0_0_S512x512)))
          (extractStridedSlice S512x512 ![0, 1024] GH slices_S512x1536_o0_1024_S512x512))) (ix2 p q)
      = Ideal.tanh (GI (ix2 p (third2 q))
          + Ideal.logistic (GI (ix2 p (third0 q)) + GH (ix2 p (third0 q))) * GH (ix2 p (third2 q))) :=
  congrArg Ideal.tanh (congrArg₂ (· + ·) (third2_apply GI p q)
    (congrArg₂ (· * ·) (resetK_apply GI GH p q) (third2_apply GH p q)))

end Gates

/-- The blend: the old embedding plus the gate times the step from it to the cell's new state. -/
theorem pay6_apply (p q : Fin 512) :
    k0_pay6 (F := Ideal) x0 (k0_pay3 x0 x1 x2 x3 x4 x5) (k0_pay4 x0 x1 x2 x3 x4 x5 x12 x13 x14 x15) (k0_pay5 x0) x6 x7 x8 x9 (ix2 p q)
      = blended (matT x4) (vec x5) (matT x6) (vec x7) (matT x8) (vec x9) (matT x12) (vec x13) (fun k => x14 (ix2 k 0))
          (vec x15 0) (rowIn x0 x1 x2 x3 p) (mat x0 p) q := by
  have hz : ∀ GI GH : FVec Ideal S512x1536 .f32,
      (∀ c, GI (ix2 p c) = gin (matT x4) (vec x5) (matT x6) (vec x7) (rowIn x0 x1 x2 x3 p) c) →
      (∀ c, GH (ix2 p c) = ghid (matT x8) (vec x9) (mat x0 p) c) →
      logistic (addf (extractStridedSlice S512x512 ![0, 512] GI slices_S512x1536_o0_512_S512x512)
        (extractStridedSlice S512x512 ![0, 512] GH slices_S512x1536_o0_512_S512x512)) (ix2 p q)
        = updateG (matT x4) (vec x5) (matT x6) (vec x7) (matT x8) (vec x9) (rowIn x0 x1 x2 x3 p) (mat x0 p) q := by
    intro GI GH hi hh
    refine (updateK_apply GI GH p q).trans ?_
    unfold updateG
    rw [hi, hh]
  have hn : ∀ GI GH : FVec Ideal S512x1536 .f32,
      (∀ c, GI (ix2 p c) = gin (matT x4) (vec x5) (matT x6) (vec x7) (rowIn x0 x1 x2 x3 p) c) →
      (∀ c, GH (ix2 p c) = ghid (matT x8) (vec x9) (mat x0 p) c) →
      tanh (addf (extractStridedSlice S512x512 ![0, 1024] GI slices_S512x1536_o0_1024_S512x512)
        (mulf (logistic (addf (extractStridedSlice S512x512 ![0, 0] GI slices_S512x1536_o0_0_S512x512)
            (extractStridedSlice S512x512 ![0, 0] GH slices_S512x1536_o0_0_S512x512)))
          (extractStridedSlice S512x512 ![0, 1024] GH slices_S512x1536_o0_1024_S512x512))) (ix2 p q)
        = candidate (matT x4) (vec x5) (matT x6) (vec x7) (matT x8) (vec x9) (rowIn x0 x1 x2 x3 p) (mat x0 p) q := by
    intro GI GH hi hh
    refine (candK_apply GI GH p q).trans ?_
    unfold candidate resetG
    rw [hi, hi, hh, hh]
  unfold k0_pay6 blended newState
  refine congrArg₂ (· + ·) rfl (congrArg₂ (· * ·) ?_ (congrArg₂ (· - ·) (congrArg₂ (· + ·)
    (congrArg₂ (· * ·) (congrArg₂ (· - ·) rfl ?_) ?_) (congrArg₂ (· * ·) ?_ rfl)) rfl))
  · exact (colBcast_apply _ _ p q).trans (pay4_apply x0 x1 x2 x3 x4 x5 x12 x13 x14 x15 p)
  · exact hz _ _ (gin_apply x0 x1 x2 x3 x4 x5 x6 x7 p) (ghid_apply x0 x8 x9 p)
  · exact hn _ _ (gin_apply x0 x1 x2 x3 x4 x5 x6 x7 p) (ghid_apply x0 x8 x9 p)
  · exact hz _ _ (gin_apply x0 x1 x2 x3 x4 x5 x6 x7 p) (ghid_apply x0 x8 x9 p)

/-! ## The layer norm -/

/-- The sum along the rows of a [512, 512] block reads, at row p, the sum of that row's entries. -/
theorem rowSum_apply (src : FVec Ideal S512x512 .f32) (p : Fin 512) :
    multiReduction (F := Ideal) .add [1] S512 src 0x00000000#32 reduces_S512x512_S512 (.inl rfl) rfl (ix1 p)
      = ∑ k : Fin 512, src (ix2 p k) := by
  refine (Ideal.multiReduction_add_single src 0x00000000#32 reduces_S512x512_S512 _ _ (ix1 p)).trans ?_
  refine Finset.sum_congr rfl fun k _ => congrArg src (funext fun a => Fin.ext ?_)
  match a with
  | ⟨0, _⟩ => rfl
  | ⟨1, _⟩ => rfl

/-- The row's mean: the sum of the blend along the row, over 512. -/
theorem pay7_apply (p : Fin 512) :
    k0_pay7 (F := Ideal) x0 (k0_pay3 x0 x1 x2 x3 x4 x5) (k0_pay4 x0 x1 x2 x3 x4 x5 x12 x13 x14 x15) (k0_pay5 x0) x6 x7 x8 x9 (ix2 p (0 : Fin 1))
      = mean (matT x4) (vec x5) (matT x6) (vec x7) (matT x8) (vec x9) (matT x12) (vec x13) (fun k => x14 (ix2 k 0))
          (vec x15 0) (rowIn x0 x1 x2 x3 p) (mat x0 p) := by
  unfold k0_pay7 mean
  refine congrArg₂ Ideal.div ?_ rfl
  refine (shapeCast_a_a1_apply _ _ p 0).trans ((rowSum_apply _ p).trans (Finset.sum_congr rfl fun j _ => ?_))
  exact pay6_apply x0 x1 x2 x3 x4 x5 x6 x7 x8 x9 x12 x13 x14 x15 p j

/-- The row's variance: the sum of the squared distances of the blend from its mean, over 512. -/
theorem pay8_apply (p : Fin 512) :
    k0_pay8 (F := Ideal) x0 (k0_pay3 x0 x1 x2 x3 x4 x5) (k0_pay4 x0 x1 x2 x3 x4 x5 x12 x13 x14 x15) (k0_pay5 x0) x6 x7 x8 x9 (ix2 p (0 : Fin 1))
      = variance (matT x4) (vec x5) (matT x6) (vec x7) (matT x8) (vec x9) (matT x12) (vec x13) (fun k => x14 (ix2 k 0))
          (vec x15 0) (rowIn x0 x1 x2 x3 p) (mat x0 p) := by
  unfold k0_pay8 variance
  refine congrArg₂ Ideal.div ?_ rfl
  refine (shapeCast_a_a1_apply _ _ p 0).trans ((rowSum_apply _ p).trans (Finset.sum_congr rfl fun j _ => ?_))
  refine congrArg₂ (· * ·) ?_ ?_ <;>
    exact congrArg₂ (· - ·) (pay6_apply x0 x1 x2 x3 x4 x5 x6 x7 x8 x9 x12 x13 x14 x15 p j)
      ((colBcast_apply _ _ p j).trans (pay7_apply x0 x1 x2 x3 x4 x5 x6 x7 x8 x9 x12 x13 x14 x15 p))

/-- The layer norm of the blend: scaled by γ, centred at the row's mean, divided by the root of the variance plus ε,
    shifted by β. -/
theorem ker_updated (p q : Fin 512) :
    k0_pay1 (F := Ideal)
        (k0_pay6 x0 (k0_pay3 x0 x1 x2 x3 x4 x5) (k0_pay4 x0 x1 x2 x3 x4 x5 x12 x13 x14 x15) (k0_pay5 x0) x6 x7 x8 x9)
        (k0_pay7 x0 (k0_pay3 x0 x1 x2 x3 x4 x5) (k0_pay4 x0 x1 x2 x3 x4 x5 x12 x13 x14 x15) (k0_pay5 x0) x6 x7 x8 x9)
        (k0_pay8 x0 (k0_pay3 x0 x1 x2 x3 x4 x5) (k0_pay4 x0 x1 x2 x3 x4 x5 x12 x13 x14 x15) (k0_pay5 x0) x6 x7 x8 x9)
        x10 x11 (ix2 p q)
      = updated (matT x4) (vec x5) (matT x6) (vec x7) (matT x8) (vec x9) (vec x10) (vec x11)
          (matT x12) (vec x13) (fun k => x14 (ix2 k 0)) (vec x15 0) (rowIn x0 x1 x2 x3 p) (mat x0 p) q := by
  unfold k0_pay1 updated
  refine congrArg₂ (· + ·) (congrArg₂ (· * ·) (congrArg₂ (· * ·) ?_ (congrArg₂ (· - ·) ?_ ?_)) ?_) ?_
  · exact rowBcast_apply x10 _ _ p q
  · exact pay6_apply x0 x1 x2 x3 x4 x5 x6 x7 x8 x9 x12 x13 x14 x15 p q
  · exact (colBcast_apply _ _ p q).trans (pay7_apply x0 x1 x2 x3 x4 x5 x6 x7 x8 x9 x12 x13 x14 x15 p)
  · exact (colBcast_apply _ _ p q).trans
      (congrArg Ideal.rsqrt (congrArg₂ (· + ·) (pay8_apply x0 x1 x2 x3 x4 x5 x6 x7 x8 x9 x12 x13 x14 x15 p) rfl))
  · exact rowBcast_apply x11 _ _ p q

end Cert.KernelRows

end
-- ==== Proof.KernelValue.lean ====
/-
  The idealized kernel's two result arrays after its run, as functions of the argument arrays. Point `t` of the grid writes
  back rows 512·t … 512·t + 511 of both results; row `p` of what it writes is the row function of row `p` of its four
  staged batch blocks and of the staged weights, and those are row 512·t + p of the batch arrays and the layers' weights
  themselves (a staged matrix is the transposed layer matrix, read back transposed). The 32 points' blocks cover the batch.
-/
import proofs.«165796_j67980742361453_1_alg».proof.Proof.Results
import proofs.«165796_j67980742361453_1_alg».proof.Proof.Blocks
import proofs.«165796_j67980742361453_1_alg».proof.Proof.BlocksWeights
import proofs.«165796_j67980742361453_1_alg».proof.Proof.KernelRows

noncomputable section

open Idealize.ShloMosaic Idealize.ShloMosaic.TcCoe Idealize.SL.Sem
open Idealize.ShloMosaic.Pipeline (Dat)

namespace Cert.KernelValue

open Cert.KernelIdeal Cert.KernelIdeal.Gen Cert.KernelIdeal.Value Cert.KernelBlocks Cert.KernelRows Cert.GameRow
open Idealize.ShloMosaic.ValueIdx

variable (m : (ℓ : Loc nD τ sig) → Buf (Elt Ideal) ℓ) (ρ : Dev nD → PrngReg)

/-- Point `t`'s staged blocks, each at its literal shape. -/
abbrev b0 (c : Dev nD) (t : Fin cfg0.N) : Vec Ideal S512x512 .f32 := iblk m c 0 t
abbrev b1 (c : Dev nD) (t : Fin cfg0.N) : Vec Ideal S512x512 .f32 := iblk m c 1 t
abbrev b2 (c : Dev nD) (t : Fin cfg0.N) : Vec Ideal S512x28 .f32 := iblk m c 2 t
abbrev b3 (c : Dev nD) (t : Fin cfg0.N) : Vec Ideal S512x1 .f32 := iblk m c 3 t
abbrev b4 (c : Dev nD) (t : Fin cfg0.N) : Vec Ideal S1053x512 .bf16 := iblk m c 4 t
abbrev b5 (c : Dev nD) (t : Fin cfg0.N) : Vec Ideal S512 .f32 := iblk m c 5 t
abbrev b6 (c : Dev nD) (t : Fin cfg0.N) : Vec Ideal S512x1536 .bf16 := iblk m c 6 t
abbrev b7 (c : Dev nD) (t : Fin cfg0.N) : Vec Ideal S1536 .f32 := iblk m c 7 t
abbrev b8 (c : Dev nD) (t : Fin cfg0.N) : Vec Ideal S512x1536 .bf16 := iblk m c 8 t
abbrev b9 (c : Dev nD) (t : Fin cfg0.N) : Vec Ideal S1536 .f32 := iblk m c 9 t
abbrev b10 (c : Dev nD) (t : Fin cfg0.N) : Vec Ideal S512 .f32 := iblk m c 10 t
abbrev b11 (c : Dev nD) (t : Fin cfg0.N) : Vec Ideal S512 .f32 := iblk m c 11 t
abbrev b12 (c : Dev nD) (t : Fin cfg0.N) : Vec Ideal S512x128 .bf16 := iblk m c 12 t
abbrev b13 (c : Dev nD) (t : Fin cfg0.N) : Vec Ideal S128 .f32 := iblk m c 13 t
abbrev b14 (c : Dev nD) (t : Fin cfg0.N) : Vec Ideal S128x1 .bf16 := iblk m c 14 t
abbrev b15 (c : Dev nD) (t : Fin cfg0.N) : Vec Ideal S1 .f32 := iblk m c 15 t

/-- Core `c`'s argument arrays as launched. -/
abbrev a0 (c : Dev nD) : S16384x512.Idx → EReal := m ((c : Thread nD τ).loc main_arg0)
abbrev a1 (c : Dev nD) : S16384x512.Idx → EReal := m ((c : Thread nD τ).loc main_arg1)
abbrev a2 (c : Dev nD) : S16384x28.Idx → EReal := m ((c : Thread nD τ).loc main_arg2)
abbrev a3 (c : Dev nD) : S16384x1.Idx → EReal := m ((c : Thread nD τ).loc main_arg3)
abbrev a4 (c : Dev nD) : S512x1053.Idx → EReal := m ((c : Thread nD τ).loc main_arg4)
abbrev a5 (c : Dev nD) : S512.Idx → EReal := m ((c : Thread nD τ).loc main_arg5)
abbrev a6 (c : Dev nD) : S1536x512.Idx → EReal := m ((c : Thread nD τ).loc main_arg6)
abbrev a7 (c : Dev nD) : S1536.Idx → EReal := m ((c : Thread nD τ).loc main_arg7)
abbrev a8 (c : Dev nD) : S1536x512.Idx → EReal := m ((c : Thread nD τ).loc main_arg8)
abbrev a9 (c : Dev nD) : S1536.Idx → EReal := m ((c : Thread nD τ).loc main_arg9)
abbrev a10 (c : Dev nD) : S512.Idx → EReal := m ((c : Thread nD τ).loc main_arg10)
abbrev a11 (c : Dev nD) : S512.Idx → EReal := m ((c : Thread nD τ).loc main_arg11)
abbrev a12 (c : Dev nD) : S128x512.Idx → EReal := m ((c : Thread nD τ).loc main_arg12)
abbrev a13 (c : Dev nD) : S128.Idx → EReal := m ((c : Thread nD τ).loc main_arg13)
abbrev a14 (c : Dev nD) : S1x128.Idx → EReal := m ((c : Thread nD τ).loc main_arg14)
abbrev a15 (c : Dev nD) : S1.Idx → EReal := m ((c : Thread nD τ).loc main_arg15)

/-! ## Rows of the staged blocks are rows of the arrays; staged weights are the layers' -/

theorem row0 (c : Dev nD) (t : Fin cfg0.N) (p : Fin 512) : mat (b0 m c t) p = mat (a0 m c) (rowOf t p) :=
  funext fun k => blk0 m c t p k
theorem row1 (c : Dev nD) (t : Fin cfg0.N) (p : Fin 512) : mat (b1 m c t) p = mat (a1 m c) (rowOf t p) :=
  funext fun k => blk1 m c t p k
theorem row2 (c : Dev nD) (t : Fin cfg0.N) (p : Fin 512) : mat (b2 m c t) p = mat (a2 m c) (rowOf t p) :=
  funext fun k => blk2 m c t p k
theorem row3 (c : Dev nD) (t : Fin cfg0.N) (p : Fin 512) : mat (b3 m c t) p = mat (a3 m c) (rowOf t p) :=
  funext fun k => blk3 m c t p k

theorem rowIn_eq (c : Dev nD) (t : Fin cfg0.N) (p : Fin 512) :
    rowIn (b0 m c t) (b1 m c t) (b2 m c t) (b3 m c t) p = batchRow (a0 m c) (a1 m c) (a2 m c) (a3 m c) (rowOf t p) := by
  show joined (mat (b0 m c t) p) (mat (b1 m c t) p) (mat (b2 m c t) p) (mat (b3 m c t) p 0) = _
  rw [row0, row1, row2, row3]

theorem w4 (c : Dev nD) (t : Fin cfg0.N) : matT (b4 m c t) = mat (a4 m c) := funext fun j => funext fun k => blk4 m c t k j
theorem w5 (c : Dev nD) (t : Fin cfg0.N) : vec (b5 m c t) = vec (a5 m c) := funext fun j => blk5 m c t j
theorem w6 (c : Dev nD) (t : Fin cfg0.N) : matT (b6 m c t) = mat (a6 m c) := funext fun j => funext fun k => blk6 m c t k j
theorem w7 (c : Dev nD) (t : Fin cfg0.N) : vec (b7 m c t) = vec (a7 m c) := funext fun j => blk7 m c t j
theorem w8 (c : Dev nD) (t : Fin cfg0.N) : matT (b8 m c t) = mat (a8 m c) := funext fun j => funext fun k => blk8 m c t k j
theorem w9 (c : Dev nD) (t : Fin cfg0.N) : vec (b9 m c t) = vec (a9 m c) := funext fun j => blk9 m c t j
theorem w10 (c : Dev nD) (t : Fin cfg0.N) : vec (b10 m c t) = vec (a10 m c) := funext fun j => blk10 m c t j
theorem w11 (c : Dev nD) (t : Fin cfg0.N) : vec (b11 m c t) = vec (a11 m c) := funext fun j => blk11 m c t j
theorem w12 (c : Dev nD) (t : Fin cfg0.N) : matT (b12 m c t) = mat (a12 m c) := funext fun j => funext fun k => blk12 m c t k j
theorem w13 (c : Dev nD) (t : Fin cfg0.N) : vec (b13 m c t) = vec (a13 m c) := funext fun j => blk13 m c t j
theorem w14 (c : Dev nD) (t : Fin cfg0.N) : (fun k : Fin 128 => b14 m c t (ix2 k 0)) = mat (a14 m c) 0 :=
  funext fun k => blk14 m c t k 0
theorem w15 (c : Dev nD) (t : Fin cfg0.N) : vec (b15 m c t) 0 = vec (a15 m c) 0 := blk15 m c t 0

/-! ## What a point writes back, and the arrays after the run -/

/-- Point `t` writes back block `t` of the game context. -/
theorem flushed17_eq (c : Dev nD) (t : Fin cfg0.N) :
    (dats m 0 c).flushed 17 t = ((cfg0.win 17).blk t).view.read (Elt Ideal)
      (contextOf (a0 m c) (a1 m c) (a2 m c) (a3 m c) (a4 m c) (a5 m c)) := by
  rw [flushed17, out17_eq]
  funext x
  rw [View.read_apply, emb17]
  obtain ⟨p, q, rfl⟩ : ∃ (p q : Fin 512), x = ix2 p q := ⟨x 0, x 1, eq_ix2 x⟩
  show k0_pay2 (F := Ideal) (b0 m c t) (b1 m c t) (b2 m c t) (b3 m c t) (b4 m c t) (b5 m c t) (ix2 p q)
    = projected (mat (a4 m c)) (vec (a5 m c)) (batchRow (a0 m c) (a1 m c) (a2 m c) (a3 m c) (rowOf t p)) q
  rw [ker_projected, rowIn_eq, w4, w5]

/-- Point `t` writes back block `t` of the updated embedding. -/
theorem flushed16_eq (c : Dev nD) (t : Fin cfg0.N) :
    (dats m 0 c).flushed 16 t = ((cfg0.win 16).blk t).view.read (Elt Ideal)
      (updatedOf (a0 m c) (a1 m c) (a2 m c) (a3 m c) (a4 m c) (a5 m c) (a6 m c) (a7 m c) (a8 m c) (a9 m c) (a10 m c) (a11 m c)
        (a12 m c) (a13 m c) (a14 m c) (a15 m c)) := by
  rw [flushed16, out16_eq]
  funext x
  rw [View.read_apply, emb16]
  obtain ⟨p, q, rfl⟩ : ∃ (p q : Fin 512), x = ix2 p q := ⟨x 0, x 1, eq_ix2 x⟩
  show k0_pay1 (F := Ideal)
      (k0_pay6 (b0 m c t) (k0_pay3 (b0 m c t) (b1 m c t) (b2 m c t) (b3 m c t) (b4 m c t) (b5 m c t))
        (k0_pay4 (b0 m c t) (b1 m c t) (b2 m c t) (b3 m c t) (b4 m c t) (b5 m c t) (b12 m c t) (b13 m c t) (b14 m c t) (b15 m c t))
        (k0_pay5 (b0 m c t)) (b6 m c t) (b7 m c t) (b8 m c t) (b9 m c t))
      (k0_pay7 (b0 m c t) (k0_pay3 (b0 m c t) (b1 m c t) (b2 m c t) (b3 m c t) (b4 m c t) (b5 m c t))
        (k0_pay4 (b0 m c t) (b1 m c t) (b2 m c t) (b3 m c t) (b4 m c t) (b5 m c t) (b12 m c t) (b13 m c t) (b14 m c t) (b15 m c t))
        (k0_pay5 (b0 m c t)) (b6 m c t) (b7 m c t) (b8 m c t) (b9 m c t))
      (k0_pay8 (b0 m c t) (k0_pay3 (b0 m c t) (b1 m c t) (b2 m c t) (b3 m c t) (b4 m c t) (b5 m c t))
        (k0_pay4 (b0 m c t) (b1 m c t) (b2 m c t) (b3 m c t) (b4 m c t) (b5 m c t) (b12 m c t) (b13 m c t) (b14 m c t) (b15 m c t))
        (k0_pay5 (b0 m c t)) (b6 m c t) (b7 m c t) (b8 m c t) (b9 m c t))
      (b10 m c t) (b11 m c t) (ix2 p q)
    = updated (mat (a4 m c)) (vec (a5 m c)) (mat (a6 m c)) (vec (a7 m c)) (mat (a8 m c)) (vec (a9 m c)) (vec (a10 m c))
        (vec (a11 m c)) (mat (a12 m c)) (vec (a13 m c)) (mat (a14 m c) 0) (vec (a15 m c) 0)
        (batchRow (a0 m c) (a1 m c) (a2 m c) (a3 m c) (rowOf t p)) (mat (a0 m c) (rowOf t p)) q
  rw [ker_updated, rowIn_eq, row0, w4, w5, w6, w7, w8, w9, w10, w11, w12, w13, w14, w15]

/-- After the run the game-context array is `contextOf` of the arguments. -/
theorem final17 (c : Dev nD) : (dats m 0 c).arrAt 17 cfg0.N
    = contextOf (a0 m c) (a1 m c) (a2 m c) (a3 m c) (a4 m c) (a5 m c) :=
  (dats m 0 c).arrAt_eq_of_cover 17 _ (fun t _ => flushed17_eq m c t) cover17

/-- After the run the updated-embedding array is `updatedOf` of the arguments. -/
theorem final16 (c : Dev nD) : (dats m 0 c).arrAt 16 cfg0.N
    = updatedOf (a0 m c) (a1 m c) (a2 m c) (a3 m c) (a4 m c) (a5 m c) (a6 m c) (a7 m c) (a8 m c) (a9 m c) (a10 m c) (a11 m c)
        (a12 m c) (a13 m c) (a14 m c) (a15 m c) :=
  (dats m 0 c).arrAt_eq_of_cover 16 _ (fun t _ => flushed16_eq m c t) cover16

end Cert.KernelValue

end
-- ==== Proof.RefRowsJoin.lean ====
/-
  The reference's first operation lays the four input arrays side by side along the column axis.
  Entry (r, k) of the result is entry k of row r's four pieces joined: the team's embedding on columns 0 … 511,
  the opponent's on 512 … 1023, the game's features on 1024 … 1051 and the outcome on column 1052.
-/
import proofs.«165796_j67980742361453_1_alg».proof.Proof.RowSpec
import proofs.«165796_j67980742361453_1_alg».proof.Proof.Gen.ReferenceIdeal
import Idealize.ShloMosaic.Lib.ValueIdx
import Idealize.ShloMosaic.Lib.Pipeline.Value

noncomputable section

namespace Cert.RefRows

open Cert.ReferenceIdeal Cert.ReferenceIdeal.Gen Cert.GameRow Idealize.ShloMosaic Idealize.ShloMosaic.ValueIdx

variable (A0 A1 : (⟨S16384x512, .f32⟩ : BufTy).Contents (Elt Ideal)) (A2 : (⟨S16384x28, .f32⟩ : BufTy).Contents (Elt Ideal))
  (A3 : (⟨S16384x1, .f32⟩ : BufTy).Contents (Elt Ideal))

/-- The four arrays side by side, read at row `r`, column `k`: the piece whose span of columns holds `k`. -/
theorem joined_apply (r : Fin 16384) (k : Fin 1053) :
    concatenate S16384x1053 1 [⟨S16384x512, A0⟩, ⟨S16384x512, A1⟩, ⟨S16384x28, A2⟩, ⟨S16384x1, A3⟩]
        concatenates_S16384x512_S16384x512_S16384x28_S16384x1_S16384x1053_d1 (ix2 r k)
      = joined (mat A0 r) (mat A1 r) (mat A2 r) (mat A3 r 0) k := by
  unfold joined
  by_cases h1 : k.val < 512
  · rw [dif_pos h1]
    exact concatenate_apply_piece (1 : Fin S16384x1053.rank) _ _ (ix2 r k) 0 (by show 0 < 4; omega) S16384x512 A0 rfl rfl 0 rfl
      (ix2 r ⟨k.val, h1⟩) (fun b hb => by match b with | ⟨0, _⟩ => rfl | ⟨1, _⟩ => exact absurd rfl hb)
      (by show 0 + k.val = k.val; omega)
  · rw [dif_neg h1]
    by_cases h2 : k.val < 1024
    · rw [dif_pos h2]
      exact concatenate_apply_piece (1 : Fin S16384x1053.rank) _ _ (ix2 r k) 1 (by show 1 < 4; omega) S16384x512 A1 rfl rfl 512 rfl
        (ix2 r ⟨k.val - 512, by omega⟩) (fun b hb => by match b with | ⟨0, _⟩ => rfl | ⟨1, _⟩ => exact absurd rfl hb)
        (by show 512 + (k.val - 512) = k.val; omega)
    · rw [dif_neg h2]
      by_cases h3 : k.val < 1052
      · rw [dif_pos h3]
        exact concatenate_apply_piece (1 : Fin S16384x1053.rank) _ _ (ix2 r k) 2 (by show 2 < 4; omega) S16384x28 A2 rfl rfl 1024 rfl
          (ix2 r ⟨k.val - 1024, by omega⟩) (fun b hb => by match b with | ⟨0, _⟩ => rfl | ⟨1, _⟩ => exact absurd rfl hb)
          (by show 1024 + (k.val - 1024) = k.val; omega)
      · rw [dif_neg h3]
        have hk : k.val = 1052 := by have := k.isLt; omega
        exact concatenate_apply_piece (1 : Fin S16384x1053.rank) _ _ (ix2 r k) 3 (by show 3 < 4; omega) S16384x1 A3 rfl rfl 1052 rfl
          (ix2 r 0) (fun b hb => by match b with | ⟨0, _⟩ => rfl | ⟨1, _⟩ => exact absurd rfl hb)
          (by show 1052 + 0 = k.val; omega)

end Cert.RefRows

end
-- ==== Proof.RefRows.lean ====
/-
  The reference program, row by row. Each stage of the reference — the input projection, the gate's hidden layer and
  its logistic, the cell's two linear maps and its three gates, the new state, the gated blend, the row's mean and
  variance, the layer norm — read at row `r` is the row function of the specification applied to row `r` of the four
  input arrays and to the weights read by plain coordinates. The reference transposes each weight matrix before
  contracting with it, so entry (j, k) of the layer's matrix is entry (j, k) of the argument array. Each stage is
  one lemma: the composed index maps of the stage's layout operations are identified with plain coordinates, the
  stage is opened into its operands at those coordinates, and the earlier stages' lemmas are substituted.
-/
import proofs.«165796_j67980742361453_1_alg».proof.Proof.RowSpec
import proofs.«165796_j67980742361453_1_alg».proof.Proof.RefReadP
import proofs.«165796_j67980742361453_1_alg».proof.Proof.RefRowsJoin
import Idealize.ShloMosaic.Lib.ValueIdx
import Idealize.ShloMosaic.Lib.Pipeline.Value
import Idealize.ShloMosaic.Lib.IdealHost
import Idealize.ShloMosaic.PureOps.Ideal.Laws

noncomputable section

namespace Cert.RefRows

open Cert.ReferenceIdeal Cert.ReferenceIdeal.ReadP Cert.GameRow Idealize.ShloMosaic Idealize.ShloMosaic.ValueIdx

variable (A0 A1 : (⟨S16384x512, .f32⟩ : BufTy).Contents (Elt Ideal)) (A2 : (⟨S16384x28, .f32⟩ : BufTy).Contents (Elt Ideal))
  (A3 : (⟨S16384x1, .f32⟩ : BufTy).Contents (Elt Ideal)) (A4 : (⟨S512x1053, .f32⟩ : BufTy).Contents (Elt Ideal))
  (A5 : (⟨S512, .f32⟩ : BufTy).Contents (Elt Ideal)) (A6 : (⟨S1536x512, .f32⟩ : BufTy).Contents (Elt Ideal))
  (A7 : (⟨S1536, .f32⟩ : BufTy).Contents (Elt Ideal)) (A8 : (⟨S1536x512, .f32⟩ : BufTy).Contents (Elt Ideal))
  (A9 : (⟨S1536, .f32⟩ : BufTy).Contents (Elt Ideal)) (A10 A11 : (⟨S512, .f32⟩ : BufTy).Contents (Elt Ideal))
  (A12 : (⟨S128x512, .f32⟩ : BufTy).Contents (Elt Ideal)) (A13 : (⟨S128, .f32⟩ : BufTy).Contents (Elt Ideal))
  (A14 : (⟨S1x128, .f32⟩ : BufTy).Contents (Elt Ideal)) (A15 : (⟨S1, .f32⟩ : BufTy).Contents (Elt Ideal))

/-- Row `r` of the four input arrays, side by side. -/
abbrev rowIn (r : Fin 16384) : Fin 1053 → EReal := joined (mat A0 r) (mat A1 r) (mat A2 r) (mat A3 r 0)

/-! ## The joined input -/

theorem v0_at (r : Fin 16384) (k : Fin 1053) :
    val_main_v0 (F := Ideal) A0 A1 A2 A3 (ix2 r k) = rowIn A0 A1 A2 A3 r k := by
  unfold val_main_v0
  exact joined_apply A0 A1 A2 A3 r k

/-! ## The input projection -/

theorem lidx_v2_at (r : Fin 16384) (q : Fin 512) (k : Fin 1053) : lidx_main_v2 (ix2 r q) k = ix2 r k := funext fun a => Fin.ext (by match a with | ⟨0, _⟩ => rfl | ⟨1, _⟩ => rfl)
theorem ridx_v2_at (r : Fin 16384) (q : Fin 512) (k : Fin 1053) : idx_main_v1 (ridx_main_v2 (ix2 r q) k) = ix2 q k := funext fun a => Fin.ext (by match a with | ⟨0, _⟩ => rfl | ⟨1, _⟩ => rfl)
theorem bias_v4_at (r : Fin 16384) (q : Fin 512) : idx_main_v3 (idx_main_v4 (ix2 r q)) = ix1 q := funext fun a => Fin.ext (by match a with | ⟨0, _⟩ => rfl)

theorem ref_projected (r : Fin 16384) (q : Fin 512) :
    val_main_v6 (F := Ideal) A0 A1 A2 A3 A4 A5 (ix2 r q) = projected (mat A4) (vec A5) (rowIn A0 A1 A2 A3 r) q := by
  rw [val_main_v6_apply, val_main_v5_apply, val_main_v2_apply, val_main_v4_apply, val_main_v3_apply,
    val_main_call0_v0_apply, val_main_call0_cst_apply]
  simp only [val_main_v1_apply, lidx_v2_at, ridx_v2_at, bias_v4_at, v0_at, Ideal.maximumf_def, Ideal.addf_def, Ideal.ofBits_def]
  rfl

/-! ## The gate: its hidden layer and its logistic -/

theorem lidx_v8_at (r : Fin 16384) (k : Fin 128) (j : Fin 512) : lidx_main_v8 (ix2 r k) j = ix2 r j := funext fun a => Fin.ext (by match a with | ⟨0, _⟩ => rfl | ⟨1, _⟩ => rfl)
theorem ridx_v8_at (r : Fin 16384) (k : Fin 128) (j : Fin 512) : idx_main_v7 (ridx_main_v8 (ix2 r k) j) = ix2 k j := funext fun a => Fin.ext (by match a with | ⟨0, _⟩ => rfl | ⟨1, _⟩ => rfl)
theorem bias_v10_at (r : Fin 16384) (k : Fin 128) : idx_main_v9 (idx_main_v10 (ix2 r k)) = ix1 k := funext fun a => Fin.ext (by match a with | ⟨0, _⟩ => rfl)

theorem ref_hidden (r : Fin 16384) (k : Fin 128) :
    val_main_v12 (F := Ideal) A0 A1 A2 A3 A4 A5 A12 A13 (ix2 r k) = hidden (mat A4) (vec A5) (mat A12) (vec A13) (rowIn A0 A1 A2 A3 r) k := by
  rw [val_main_v12_apply, val_main_v11_apply, val_main_v8_apply, val_main_v10_apply, val_main_v9_apply,
    val_main_call1_v0_apply, val_main_call1_cst_apply]
  simp only [val_main_v7_apply, lidx_v8_at, ridx_v8_at, bias_v10_at, ref_projected, Ideal.maximumf_def, Ideal.addf_def, Ideal.ofBits_def]
  rfl

theorem lidx_v14_at (r : Fin 16384) (k : Fin 128) : lidx_main_v14 (ix2 r (0 : Fin 1)) k = ix2 r k := funext fun a => Fin.ext (by match a with | ⟨0, _⟩ => rfl | ⟨1, _⟩ => rfl)
theorem ridx_v14_at (r : Fin 16384) (k : Fin 128) : idx_main_v13 (ridx_main_v14 (ix2 r (0 : Fin 1)) k) = ix2 (0 : Fin 1) k := funext fun a => Fin.ext (by match a with | ⟨0, _⟩ => rfl | ⟨1, _⟩ => rfl)
theorem bias_v16_at (r : Fin 16384) : idx_main_v15 (idx_main_v16 (ix2 r (0 : Fin 1))) = ix1 (0 : Fin 1) := funext fun a => Fin.ext (by match a with | ⟨0, _⟩ => rfl)

theorem ref_importance (r : Fin 16384) :
    val_main_v23 (F := Ideal) A0 A1 A2 A3 A4 A5 A12 A13 A14 A15 (ix2 r (0 : Fin 1)) = importance (mat A4) (vec A5) (mat A12) (vec A13) (mat A14 0) (vec A15 0) (rowIn A0 A1 A2 A3 r) := by
  rw [val_main_v23_apply, val_main_v22_apply, val_main_cst_0_apply, val_main_v21_apply, val_main_v20_apply, val_main_cst_apply,
    val_main_v19_apply, val_main_v18_apply, val_main_v17_apply, val_main_v14_apply, val_main_v16_apply, val_main_v15_apply]
  simp only [val_main_v13_apply, lidx_v14_at, ridx_v14_at, bias_v16_at, ref_hidden, Ideal.hostDivf_def, Ideal.addf_def,
    Ideal.hostUnary_exp_def, Ideal.hostNegf_def, Ideal.negf_def, Ideal.ofBits_def, Ideal.ofBits_one_f32]
  rfl

/-! ## The cell's two linear maps -/

theorem lidx_v25_at (r : Fin 16384) (c : Fin 1536) (j : Fin 512) : lidx_main_v25 (ix2 r c) j = ix2 r j := funext fun a => Fin.ext (by match a with | ⟨0, _⟩ => rfl | ⟨1, _⟩ => rfl)
theorem ridx_v25_at (r : Fin 16384) (c : Fin 1536) (j : Fin 512) : idx_main_v24 (ridx_main_v25 (ix2 r c) j) = ix2 c j := funext fun a => Fin.ext (by match a with | ⟨0, _⟩ => rfl | ⟨1, _⟩ => rfl)
theorem bias_v27_at (r : Fin 16384) (c : Fin 1536) : idx_main_v26 (idx_main_v27 (ix2 r c)) = ix1 c := funext fun a => Fin.ext (by match a with | ⟨0, _⟩ => rfl)

theorem ref_gin (r : Fin 16384) (c : Fin 1536) :
    val_main_v28 (F := Ideal) A0 A1 A2 A3 A4 A5 A6 A7 (ix2 r c) = gin (mat A4) (vec A5) (mat A6) (vec A7) (rowIn A0 A1 A2 A3 r) c := by
  rw [val_main_v28_apply, val_main_v25_apply, val_main_v27_apply, val_main_v26_apply]
  simp only [val_main_v24_apply, lidx_v25_at, ridx_v25_at, bias_v27_at, ref_projected, Ideal.addf_def]
  rfl

theorem lidx_v30_at (r : Fin 16384) (c : Fin 1536) (j : Fin 512) : lidx_main_v30 (ix2 r c) j = ix2 r j := funext fun a => Fin.ext (by match a with | ⟨0, _⟩ => rfl | ⟨1, _⟩ => rfl)
theorem ridx_v30_at (r : Fin 16384) (c : Fin 1536) (j : Fin 512) : idx_main_v29 (ridx_main_v30 (ix2 r c) j) = ix2 c j := funext fun a => Fin.ext (by match a with | ⟨0, _⟩ => rfl | ⟨1, _⟩ => rfl)
theorem bias_v32_at (r : Fin 16384) (c : Fin 1536) : idx_main_v31 (idx_main_v32 (ix2 r c)) = ix1 c := funext fun a => Fin.ext (by match a with | ⟨0, _⟩ => rfl)

theorem ref_ghid (r : Fin 16384) (c : Fin 1536) :
    val_main_v33 (F := Ideal) A0 A8 A9 (ix2 r c) = ghid (mat A8) (vec A9) (mat A0 r) c := by
  rw [val_main_v33_apply, val_main_v30_apply, val_main_v32_apply, val_main_v31_apply]
  simp only [val_main_v29_apply, lidx_v30_at, ridx_v30_at, bias_v32_at, Ideal.addf_def]
  rfl

/-! ## The cell's three gates and its new state -/

theorem slice0_at (r : Fin 16384) (q : Fin 512) : idx_main_v34 (ix2 r q) = ix2 r (third0 q) := funext fun a => Fin.ext (by match a with | ⟨0, _⟩ => rfl | ⟨1, _⟩ => rfl)
theorem slice1_at (r : Fin 16384) (q : Fin 512) : idx_main_v35 (ix2 r q) = ix2 r (third1 q) := funext fun a => Fin.ext (by match a with | ⟨0, _⟩ => rfl | ⟨1, _⟩ => rfl)
theorem slice2_at (r : Fin 16384) (q : Fin 512) : idx_main_v36 (ix2 r q) = ix2 r (third2 q) := funext fun a => Fin.ext (by match a with | ⟨0, _⟩ => rfl | ⟨1, _⟩ => rfl)
theorem slice0h_at (r : Fin 16384) (q : Fin 512) : idx_main_v37 (ix2 r q) = ix2 r (third0 q) := funext fun a => Fin.ext (by match a with | ⟨0, _⟩ => rfl | ⟨1, _⟩ => rfl)
theorem slice1h_at (r : Fin 16384) (q : Fin 512) : idx_main_v38 (ix2 r q) = ix2 r (third1 q) := funext fun a => Fin.ext (by match a with | ⟨0, _⟩ => rfl | ⟨1, _⟩ => rfl)
theorem slice2h_at (r : Fin 16384) (q : Fin 512) : idx_main_v39 (ix2 r q) = ix2 r (third2 q) := funext fun a => Fin.ext (by match a with | ⟨0, _⟩ => rfl | ⟨1, _⟩ => rfl)

theorem ref_reset (r : Fin 16384) (q : Fin 512) :
    val_main_v46 (F := Ideal) A0 A1 A2 A3 A4 A5 A6 A7 A8 A9 (ix2 r q) = resetG (mat A4) (vec A5) (mat A6) (vec A7) (mat A8) (vec A9) (rowIn A0 A1 A2 A3 r) (mat A0 r) q := by
  rw [val_main_v46_apply, val_main_v45_apply, val_main_cst_2_apply, val_main_v44_apply, val_main_v43_apply, val_main_cst_1_apply,
    val_main_v42_apply, val_main_v41_apply, val_main_v40_apply, val_main_v34_apply, val_main_v37_apply]
  simp only [slice0_at, slice0h_at, ref_gin, ref_ghid, Ideal.hostDivf_def, Ideal.addf_def,
    Ideal.hostUnary_exp_def, Ideal.hostNegf_def, Ideal.negf_def, Ideal.ofBits_def, Ideal.ofBits_one_f32]
  rfl

theorem ref_update (r : Fin 16384) (q : Fin 512) :
    val_main_v53 (F := Ideal) A0 A1 A2 A3 A4 A5 A6 A7 A8 A9 (ix2 r q) = updateG (mat A4) (vec A5) (mat A6) (vec A7) (mat A8) (vec A9) (rowIn A0 A1 A2 A3 r) (mat A0 r) q := by
  rw [val_main_v53_apply, val_main_v52_apply, val_main_cst_4_apply, val_main_v51_apply, val_main_v50_apply, val_main_cst_3_apply,
    val_main_v49_apply, val_main_v48_apply, val_main_v47_apply, val_main_v35_apply, val_main_v38_apply]
  simp only [slice1_at, slice1h_at, ref_gin, ref_ghid, Ideal.hostDivf_def, Ideal.addf_def,
    Ideal.hostUnary_exp_def, Ideal.hostNegf_def, Ideal.negf_def, Ideal.ofBits_def, Ideal.ofBits_one_f32]
  rfl

theorem ref_candidate (r : Fin 16384) (q : Fin 512) :
    val_main_v56 (F := Ideal) A0 A1 A2 A3 A4 A5 A6 A7 A8 A9 (ix2 r q) = candidate (mat A4) (vec A5) (mat A6) (vec A7) (mat A8) (vec A9) (rowIn A0 A1 A2 A3 r) (mat A0 r) q := by
  rw [val_main_v56_apply, val_main_v55_apply, val_main_v36_apply, val_main_v54_apply, val_main_v39_apply]
  simp only [slice2_at, slice2h_at, ref_gin, ref_ghid, ref_reset, Ideal.hostUnary_tanh_def, Ideal.addf_def, Ideal.mulf_def]
  rfl

theorem ref_newState (r : Fin 16384) (q : Fin 512) :
    val_main_v61 (F := Ideal) A0 A1 A2 A3 A4 A5 A6 A7 A8 A9 (ix2 r q) = newState (mat A4) (vec A5) (mat A6) (vec A7) (mat A8) (vec A9) (rowIn A0 A1 A2 A3 r) (mat A0 r) q := by
  rw [val_main_v61_apply, val_main_v59_apply, val_main_v58_apply, val_main_v57_apply, val_main_cst_5_apply, val_main_v60_apply]
  simp only [ref_update, ref_candidate, Ideal.addf_def, Ideal.mulf_def, Ideal.subf_def, Ideal.ofBits_def]
  rfl

/-! ## The gated blend -/

theorem gate_at (r : Fin 16384) (q : Fin 512) : idx_main_v63 (ix2 r q) = ix2 r (0 : Fin 1) := funext fun a => Fin.ext (by match a with | ⟨0, _⟩ => rfl | ⟨1, _⟩ => rfl)

theorem ref_blended (r : Fin 16384) (q : Fin 512) :
    val_main_v65 (F := Ideal) A0 A1 A2 A3 A4 A5 A6 A7 A8 A9 A12 A13 A14 A15 (ix2 r q) = blended (mat A4) (vec A5) (mat A6) (vec A7) (mat A8) (vec A9) (mat A12) (vec A13) (mat A14 0) (vec A15 0) (rowIn A0 A1 A2 A3 r) (mat A0 r) q := by
  rw [val_main_v65_apply, val_main_v64_apply, val_main_v63_apply, val_main_v62_apply]
  simp only [gate_at, ref_importance, ref_newState, Ideal.addf_def, Ideal.mulf_def, Ideal.subf_def]
  rfl

/-! ## The row's mean and variance -/

theorem row_v66_at (r : Fin 16384) (k : Fin 512) : idx_main_v66 (idx_main_v67 (ix2 r (0 : Fin 1))) k = ix2 r k := funext fun a => Fin.ext (by match a with | ⟨0, _⟩ => rfl | ⟨1, _⟩ => rfl)

theorem ref_mean (r : Fin 16384) :
    val_main_v69 (F := Ideal) A0 A1 A2 A3 A4 A5 A6 A7 A8 A9 A12 A13 A14 A15 (ix2 r (0 : Fin 1)) = mean (mat A4) (vec A5) (mat A6) (vec A7) (mat A8) (vec A9) (mat A12) (vec A13) (mat A14 0) (vec A15 0) (rowIn A0 A1 A2 A3 r) (mat A0 r) := by
  rw [val_main_v69_apply, val_main_v67_apply, val_main_v66_apply, val_main_cst_6_apply, val_main_v68_apply, val_main_cst_7_apply]
  simp only [row_v66_at, ref_blended, Ideal.hostDivf_def, Ideal.ofBits_def, Ideal.ofBits_zero_f32, zero_add]
  rfl

theorem row_v73_at (r : Fin 16384) (k : Fin 512) : idx_main_v73 (idx_main_v74 (ix2 r (0 : Fin 1))) k = ix2 r k := funext fun a => Fin.ext (by match a with | ⟨0, _⟩ => rfl | ⟨1, _⟩ => rfl)
theorem mean_v70_at (r : Fin 16384) (q : Fin 512) : idx_main_v70 (ix2 r q) = ix2 r (0 : Fin 1) := funext fun a => Fin.ext (by match a with | ⟨0, _⟩ => rfl | ⟨1, _⟩ => rfl)

theorem ref_variance (r : Fin 16384) :
    val_main_v76 (F := Ideal) A0 A1 A2 A3 A4 A5 A6 A7 A8 A9 A12 A13 A14 A15 (ix2 r (0 : Fin 1)) = variance (mat A4) (vec A5) (mat A6) (vec A7) (mat A8) (vec A9) (mat A12) (vec A13) (mat A14 0) (vec A15 0) (rowIn A0 A1 A2 A3 r) (mat A0 r) := by
  rw [val_main_v76_apply, val_main_v74_apply, val_main_v73_apply, val_main_cst_8_apply, val_main_v75_apply, val_main_cst_9_apply]
  simp only [val_main_v72_apply, val_main_v71_apply, val_main_v70_apply, row_v73_at, mean_v70_at, ref_blended, ref_mean,
    Ideal.hostDivf_def, Ideal.mulf_def, Ideal.subf_def, Ideal.ofBits_def, Ideal.ofBits_zero_f32, zero_add]
  rfl

/-! ## The layer norm -/

theorem mean_v77_at (r : Fin 16384) (q : Fin 512) : idx_main_v77 (ix2 r q) = ix2 r (0 : Fin 1) := funext fun a => Fin.ext (by match a with | ⟨0, _⟩ => rfl | ⟨1, _⟩ => rfl)
theorem scale_v85_at (r : Fin 16384) (q : Fin 512) : idx_main_v85 (ix2 r q) = ix2 r (0 : Fin 1) := funext fun a => Fin.ext (by match a with | ⟨0, _⟩ => rfl | ⟨1, _⟩ => rfl)
theorem gain_v80_at (r : Fin 16384) (q : Fin 512) : idx_main_v79 (idx_main_v80 (ix2 r q)) = ix1 q := funext fun a => Fin.ext (by match a with | ⟨0, _⟩ => rfl)
theorem shift_v88_at (r : Fin 16384) (q : Fin 512) : idx_main_v87 (idx_main_v88 (ix2 r q)) = ix1 q := funext fun a => Fin.ext (by match a with | ⟨0, _⟩ => rfl)

theorem ref_updated (r : Fin 16384) (q : Fin 512) :
    val_main_v89 (F := Ideal) A0 A1 A2 A3 A4 A5 A6 A7 A8 A9 A10 A11 A12 A13 A14 A15 (ix2 r q)
      = updated (mat A4) (vec A5) (mat A6) (vec A7) (mat A8) (vec A9) (vec A10) (vec A11)
          (mat A12) (vec A13) (mat A14 0) (vec A15 0) (rowIn A0 A1 A2 A3 r) (mat A0 r) q := by
  rw [val_main_v89_apply, val_main_v86_apply, val_main_v81_apply, val_main_v80_apply, val_main_v79_apply, val_main_v78_apply,
    val_main_v77_apply, val_main_v85_apply, val_main_v84_apply, val_main_v83_apply, val_main_v82_apply, val_main_cst_10_apply,
    val_main_v88_apply, val_main_v87_apply]
  simp only [mean_v77_at, scale_v85_at, gain_v80_at, shift_v88_at, ref_blended, ref_mean, ref_variance,
    Ideal.addf_def, Ideal.mulf_def, Ideal.subf_def, Ideal.hostUnary_rsqrt_def, Ideal.ofBits_def]
  rfl

end Cert.RefRows

end
-- ==== Proof.RefValue.lean ====
/-
  The idealized reference's two results as functions of its argument arrays: entry (r, q) of the returned game context and
  of the returned updated embedding is the row function of batch row r at q, so each whole array is `contextOf` /
  `updatedOf` of the arguments.
-/
import proofs.«165796_j67980742361453_1_alg».proof.Proof.Results
import proofs.«165796_j67980742361453_1_alg».proof.Proof.RefRows

noncomputable section

namespace Cert.RefValue

open Cert.ReferenceIdeal Cert.ReferenceIdeal.ReadP Cert.GameRow Cert.RefRows Idealize.ShloMosaic Idealize.ShloMosaic.ValueIdx

variable (A0 A1 : (⟨S16384x512, .f32⟩ : BufTy).Contents (Elt Ideal)) (A2 : (⟨S16384x28, .f32⟩ : BufTy).Contents (Elt Ideal))
  (A3 : (⟨S16384x1, .f32⟩ : BufTy).Contents (Elt Ideal)) (A4 : (⟨S512x1053, .f32⟩ : BufTy).Contents (Elt Ideal))
  (A5 : (⟨S512, .f32⟩ : BufTy).Contents (Elt Ideal)) (A6 : (⟨S1536x512, .f32⟩ : BufTy).Contents (Elt Ideal))
  (A7 : (⟨S1536, .f32⟩ : BufTy).Contents (Elt Ideal)) (A8 : (⟨S1536x512, .f32⟩ : BufTy).Contents (Elt Ideal))
  (A9 : (⟨S1536, .f32⟩ : BufTy).Contents (Elt Ideal)) (A10 A11 : (⟨S512, .f32⟩ : BufTy).Contents (Elt Ideal))
  (A12 : (⟨S128x512, .f32⟩ : BufTy).Contents (Elt Ideal)) (A13 : (⟨S128, .f32⟩ : BufTy).Contents (Elt Ideal))
  (A14 : (⟨S1x128, .f32⟩ : BufTy).Contents (Elt Ideal)) (A15 : (⟨S1, .f32⟩ : BufTy).Contents (Elt Ideal))

/-- The returned game context is the projection, row by row. -/
theorem context_eq : val_main_v6 (F := Ideal) A0 A1 A2 A3 A4 A5 = contextOf A0 A1 A2 A3 A4 A5 := by
  funext i
  obtain ⟨r, q, rfl⟩ : ∃ (r : Fin 16384) (q : Fin 512), i = ix2 r q := ⟨i 0, i 1, eq_ix2 i⟩
  exact ref_projected A0 A1 A2 A3 A4 A5 r q

/-- The returned updated embedding is the layer-normed blend, row by row. -/
theorem updated_eq : val_main_v89 (F := Ideal) A0 A1 A2 A3 A4 A5 A6 A7 A8 A9 A10 A11 A12 A13 A14 A15
    = updatedOf A0 A1 A2 A3 A4 A5 A6 A7 A8 A9 A10 A11 A12 A13 A14 A15 := by
  funext i
  obtain ⟨r, q, rfl⟩ : ∃ (r : Fin 16384) (q : Fin 512), i = ix2 r q := ⟨i 0, i 1, eq_ix2 i⟩
  exact ref_updated A0 A1 A2 A3 A4 A5 A6 A7 A8 A9 A10 A11 A12 A13 A14 A15 r q

end Cert.RefValue

end
-- ==== Proof.lean ====
/-
  A game processor applied to each of 16384 batch rows independently: the row's four pieces (team embedding, opponent
  embedding, game features, outcome) side by side go through a linear projection with ReLU (the returned game context); a
  two-layer gate gives the row one importance in (0, 1); a GRU cell with the team embedding as its state gives a new state;
  the embedding moves towards it by the importance and is layer-normed (the returned updated embedding).

  The kernel walks the batch in 32 blocks of 512 rows with all weights staged, the host having transposed each weight matrix
  (and narrowed it to bf16, which changes no value on the extended reals); the reference works on the whole batch at once and
  spells the logistic function as 1 / (1 + exp (−x)). On the extended reals both compute, for every row, the same operations
  in the same order: a contraction is the same finite sum however it is tiled, the kernel's lane sums are the host's row sums
  from zero, and the logistic function is that quotient by definition. So each result array of either program is one and the
  same function of the sixteen argument arrays (`contextOf`, `updatedOf`), and no property of the inputs is used.
-/
import proofs.«165796_j67980742361453_1_alg».proof.Defs
import proofs.«165796_j67980742361453_1_alg».proof.Proof.Gen.Kernel
import proofs.«165796_j67980742361453_1_alg».proof.Proof.Gen.Kernel.Skeleton
import proofs.«165796_j67980742361453_1_alg».proof.Proof.Gen.Kernel.Launch
import proofs.«165796_j67980742361453_1_alg».proof.Proof.Gen.Kernel.Points
import proofs.«165796_j67980742361453_1_alg».proof.Proof.Gen.Kernel.Frame
import proofs.«165796_j67980742361453_1_alg».proof.Proof.Gen.KernelIdeal
import proofs.«165796_j67980742361453_1_alg».proof.Proof.Gen.KernelIdeal.Skeleton
import proofs.«165796_j67980742361453_1_alg».proof.Proof.Gen.KernelIdeal.Launch
import proofs.«165796_j67980742361453_1_alg».proof.Proof.Gen.KernelIdeal.Points
import proofs.«165796_j67980742361453_1_alg».proof.Proof.Gen.KernelIdeal.Frame
import proofs.«165796_j67980742361453_1_alg».proof.Proof.Gen.ReferenceIdeal
import proofs.«165796_j67980742361453_1_alg».proof.Proof.Gen.Pre_finite_inputs
import proofs.«165796_j67980742361453_1_alg».proof.Proof.Gen.KernelIdeal.Value
import proofs.«165796_j67980742361453_1_alg».proof.Proof.RefRunP
import proofs.«165796_j67980742361453_1_alg».proof.Proof.RefReadP
import proofs.«165796_j67980742361453_1_alg».proof.Proof.KernelValue
import proofs.«165796_j67980742361453_1_alg».proof.Proof.RefValue
import Idealize.ShloMosaic.Adequacy
import Idealize.ShloMosaic.Init

noncomputable section

namespace Cert.Proof

open Idealize.ShloMosaic Idealize.SL.Sem

/-- Both kernel programs terminate without a fault and leave their arguments as they were. -/
theorem frame_kernel : Cert.frame_Kernel := fun m ρ _ => Cert.Kernel.Gen.frame m ρ
theorem frame_kernelIdeal : Cert.frame_KernelIdeal := fun m ρ _ => Cert.KernelIdeal.Gen.frame m ρ

/-- So does the reference: its run with the two results dropped. -/
theorem frame_reference : Cert.frame_ReferenceIdeal := fun m ρ _ =>
  (θ_run Cert.ReferenceIdeal.defs _ _).mono (fun _ h c => (h c).2.2) (Cert.ReferenceIdeal.ValueP.run (F := Ideal) m ρ)

/-- The idealized kernel ends with its two result arrays at `updatedOf` and `contextOf` of its arguments; the idealized
    reference, from arguments that agree, with its two at the same functions of the same arrays. -/
theorem algebraic : Cert.algebraic_KernelIdeal_ReferenceIdeal := by
  intro m ρ m' ρ' _ hagree
  refine ⟨fun c => Cert.GameRow.updatedOf (Cert.KernelValue.a0 m c) (Cert.KernelValue.a1 m c) (Cert.KernelValue.a2 m c)
      (Cert.KernelValue.a3 m c) (Cert.KernelValue.a4 m c) (Cert.KernelValue.a5 m c) (Cert.KernelValue.a6 m c) (Cert.KernelValue.a7 m c)
      (Cert.KernelValue.a8 m c) (Cert.KernelValue.a9 m c) (Cert.KernelValue.a10 m c) (Cert.KernelValue.a11 m c)
      (Cert.KernelValue.a12 m c) (Cert.KernelValue.a13 m c) (Cert.KernelValue.a14 m c) (Cert.KernelValue.a15 m c),
    fun c => Cert.GameRow.contextOf (Cert.KernelValue.a0 m c) (Cert.KernelValue.a1 m c) (Cert.KernelValue.a2 m c)
      (Cert.KernelValue.a3 m c) (Cert.KernelValue.a4 m c) (Cert.KernelValue.a5 m c), ?_, ?_⟩
  · exact (θ_run Cert.KernelIdeal.defs _ _).mono
      (fun r h c => ⟨(h c).1.trans (Cert.KernelValue.final16 m c), (h c).2.1.trans (Cert.KernelValue.final17 m c), (h c).2.2⟩)
      (Cert.KernelIdeal.Value.run_blocks m ρ)
  · refine (θ_run Cert.ReferenceIdeal.defs _ _).mono (fun r h c => ⟨?_, ?_, (h c).2.2⟩)
      (Cert.ReferenceIdeal.ValueP.run (F := Ideal) m' ρ')
    · obtain ⟨e0, e1, e2, e3, e4, e5, e6, e7, e8, e9, e10, e11, e12, e13, e14, e15⟩ := hagree c
      rw [(h c).1, Cert.ReferenceIdeal.ReadP.val_main_v89_eq, Cert.RefValue.updated_eq,
        e0, e1, e2, e3, e4, e5, e6, e7, e8, e9, e10, e11, e12, e13, e14, e15]
    · obtain ⟨e0, e1, e2, e3, e4, e5, -⟩ := hagree c
      rw [(h c).2.1, Cert.ReferenceIdeal.ReadP.val_main_v6_eq, Cert.RefValue.context_eq, e0, e1, e2, e3, e4, e5]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
